-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S1024x128 : Shape := ⟨2, ![1024, 128]⟩
abbrev S128 : Shape := ⟨1, ![128]⟩
abbrev S512x16 : Shape := ⟨2, ![512, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S800000 32) (main_arg3 : FVec F S1024x128 .f32) (main_arg4 : FVec F S128 .f32) (main_arg5 : FVec F S512x16 .f32) (main_arg6 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1024x128 .f32 := Host.absf main_arg3
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x16 .f32 := Host.absf main_arg5
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S1024x128 : Shape := ⟨2, ![1024, 128]⟩
abbrev S128 : Shape := ⟨1, ![128]⟩
abbrev S512x16 : Shape := ⟨2, ![512, 16]⟩
abbrev S16 : Shape := ⟨1, ![16]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S200000x256 : Shape := ⟨2, ![200000, 256]⟩
abbrev S4x50000x256 : Shape := ⟨3, ![4, 50000, 256]⟩
abbrev S4x256x128 : Shape := ⟨3, ![4, 256, 128]⟩
abbrev S50000x128 : Shape := ⟨2, ![50000, 128]⟩
abbrev S4x2000x256 : Shape := ⟨3, ![4, 2000, 256]⟩
abbrev S2000x128 : Shape := ⟨2, ![2000, 128]⟩
abbrev S1x2000x256 : Shape := ⟨3, ![1, 2000, 256]⟩
abbrev S2000x256 : Shape := ⟨2, ![2000, 256]⟩
abbrev S1x256x128 : Shape := ⟨3, ![1, 256, 128]⟩
abbrev S256x128 : Shape := ⟨2, ![256, 128]⟩
abbrev S1x128 : Shape := ⟨2, ![1, 128]⟩
abbrev S800000x128 : Shape := ⟨2, ![800000, 128]⟩
abbrev S200000x128 : Shape := ⟨2, ![200000, 128]⟩
abbrev S4x50000x128 : Shape := ⟨3, ![4, 50000, 128]⟩
abbrev S4x128x16 : Shape := ⟨3, ![4, 128, 16]⟩
abbrev S50000x16 : Shape := ⟨2, ![50000, 16]⟩
abbrev S4x2000x128 : Shape := ⟨3, ![4, 2000, 128]⟩
abbrev S2000x16 : Shape := ⟨2, ![2000, 16]⟩
abbrev S1x2000x128 : Shape := ⟨3, ![1, 2000, 128]⟩
abbrev S1x128x16 : Shape := ⟨3, ![1, 128, 16]⟩
abbrev S128x16 : Shape := ⟨2, ![128, 16]⟩
abbrev S1x16 : Shape := ⟨2, ![1, 16]⟩
abbrev S2000 : Shape := ⟨1, ![2000]⟩
abbrev S2000x1 : Shape := ⟨2, ![2000, 1]⟩

abbrev nBuf : Space → Nat
  | .hbm => 100
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .i32⟩
  | .hbm, ⟨3, _⟩ => ⟨S1024x128, .f32⟩
  | .hbm, ⟨4, _⟩ => ⟨S128, .f32⟩
  | .hbm, ⟨5, _⟩ => ⟨S512x16, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S800000x1, .f32⟩
  | .hbm, ⟨60, _⟩ => ⟨S800000x256, .f32⟩
  | .hbm, ⟨61, _⟩ => ⟨S800000x256, .f32⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S_, .f32⟩
  | .hbm, ⟨67, _⟩ => ⟨S200000x256, .f32⟩
  | .hbm, ⟨68, _⟩ => ⟨S800000x1, .i32⟩
  | .hbm, ⟨69, _⟩ => ⟨S200000x256, .f32⟩
  | .hbm, ⟨70, _⟩ => ⟨S4x50000x256, .f32⟩
  | .hbm, ⟨71, _⟩ => ⟨S4x50000x256, .bf16⟩
  | .hbm, ⟨72, _⟩ => ⟨S4x256x128, .f32⟩
  | .hbm, ⟨73, _⟩ => ⟨S4x256x128, .bf16⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S_, .f32⟩
  | .hbm, ⟨92, _⟩ => ⟨S200000x128, .f32⟩
  | .hbm, ⟨93, _⟩ => ⟨S800000x1, .i32⟩
  | .hbm, ⟨94, _⟩ => ⟨S200000x128, .f32⟩
  | .hbm, ⟨95, _⟩ => ⟨S4x50000x128, .f32⟩
  | .hbm, ⟨96, _⟩ => ⟨S4x50000x128, .bf16⟩
  | .hbm, ⟨97, _⟩ => ⟨S4x128x16, .f32⟩
  | .hbm, ⟨98, _⟩ => ⟨S4x128x16, .bf16⟩
  | .hbm, ⟨99, _⟩ => ⟨S50000x16, .f32⟩
  | .local _ .vmem, ⟨0, _⟩ => ⟨S4x2000x256, .bf16⟩
  | .local _ .vmem, ⟨1, _⟩ => ⟨S4x2000x256, .bf16⟩
  | .local _ .vmem, ⟨2, _⟩ => ⟨S4x256x128, .bf16⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S4x2000x128, .bf16⟩
  | .local _ .vmem, ⟨7, _⟩ => ⟨S4x2000x128, .bf16⟩
  | .local _ .vmem, ⟨8, _⟩ => ⟨S4x128x16, .bf16⟩
  | .local _ .vmem, ⟨9, _⟩ => ⟨S16, .f32⟩
  | .local _ .vmem, ⟨10, _⟩ => ⟨S2000x16, .f32⟩
  | .local _ .vmem, ⟨11, _⟩ => ⟨S2000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_c_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S200000x256 : S_.BroadcastsInDim S200000x256 (![] : Fin 0 → Fin S200000x256.rank)
  shapeCasts_S200000x256_S4x50000x256 : S200000x256.ShapeCasts S4x50000x256
  bitsLt_bf16_f32 : FTy.bits .bf16 < FTy.bits .f32
  shapeCasts_S1024x128_S4x256x128 : S1024x128.ShapeCasts S4x256x128
  inb_S4x2000x256_S1x2000x256_0_0_0 : ∀ a, (![0, 0, 0] : Fin 3 → Nat) a + S1x2000x256.size a ≤ S4x2000x256.size a
  h_S1x2000x256 : 0 < S1x2000x256.numel
  shapeCasts_S1x2000x256_S2000x256 : S1x2000x256.ShapeCasts S2000x256
  inb_S4x256x128_S1x256x128_0_0_0 : ∀ a, (![0, 0, 0] : Fin 3 → Nat) a + S1x256x128.size a ≤ S4x256x128.size a
  h_S1x256x128 : 0 < S1x256x128.numel
  shapeCasts_S1x256x128_S256x128 : S1x256x128.ShapeCasts S256x128
  inb_S4x2000x256_S1x2000x256_1_0_0 : ∀ a, (![1, 0, 0] : Fin 3 → Nat) a + S1x2000x256.size a ≤ S4x2000x256.size a
  inb_S4x256x128_S1x256x128_1_0_0 : ∀ a, (![1, 0, 0] : Fin 3 → Nat) a + S1x256x128.size a ≤ S4x256x128.size a
  inb_S4x2000x256_S1x2000x256_2_0_0 : ∀ a, (![2, 0, 0] : Fin 3 → Nat) a + S1x2000x256.size a ≤ S4x2000x256.size a
  inb_S4x256x128_S1x256x128_2_0_0 : ∀ a, (![2, 0, 0] : Fin 3 → Nat) a + S1x256x128.size a ≤ S4x256x128.size a
  inb_S4x2000x256_S1x2000x256_3_0_0 : ∀ a, (![3, 0, 0] : Fin 3 → Nat) a + S1x2000x256.size a ≤ S4x2000x256.size a
  inb_S4x256x128_S1x256x128_3_0_0 : ∀ a, (![3, 0, 0] : Fin 3 → Nat) a + S1x256x128.size a ≤ S4x256x128.size a
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  shapeCasts_S200000x128_S4x50000x128 : S200000x128.ShapeCasts S4x50000x128
  shapeCasts_S512x16_S4x128x16 : S512x16.ShapeCasts S4x128x16
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  inb_S4x128x16_S1x128x16_0_0_0 : ∀ a, (![0, 0, 0] : Fin 3 → Nat) a + S1x128x16.size a ≤ S4x128x16.size a
  h_S1x128x16 : 0 < S1x128x16.numel
  shapeCasts_S1x128x16_S128x16 : S1x128x16.ShapeCasts S128x16
  inb_S4x2000x128_S1x2000x128_1_0_0 : ∀ a, (![1, 0, 0] : Fin 3 → Nat) a + S1x2000x128.size a ≤ S4x2000x128.size a
  inb_S4x128x16_S1x128x16_1_0_0 : ∀ a, (![1, 0, 0] : Fin 3 → Nat) a + S1x128x16.size a ≤ S4x128x16.size a
  inb_S4x2000x128_S1x2000x128_2_0_0 : ∀ a, (![2, 0, 0] : Fin 3 → Nat) a + S1x2000x128.size a ≤ S4x2000x128.size a
  inb_S4x128x16_S1x128x16_2_0_0 : ∀ a, (![2, 0, 0] : Fin 3 → Nat) a + S1x128x16.size a ≤ S4x128x16.size a
  inb_S4x2000x128_S1x2000x128_3_0_0 : ∀ a, (![3, 0, 0] : Fin 3 → Nat) a + S1x2000x128.size a ≤ S4x2000x128.size a
  inb_S4x128x16_S1x128x16_3_0_0 : ∀ a, (![3, 0, 0] : Fin 3 → Nat) a + S1x128x16.size a ≤ S4x128x16.size a
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S200000x256_S800000x1_S800000x256_1_0_0_1_wf : ScatterDims.WF S200000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x256.size a ≤ S4x50000x256.size a
  hwx0_0 : ∀ i : grid0.Coords, EltTy.bits .bf16 = 32 ∨ (Rect.block (s := S4x50000x256) S4x2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x128.size a ≤ S4x256x128.size a
  hwx0_1 : ∀ i : grid0.Coords, EltTy.bits .bf16 = 32 ∨ (Rect.block (s := S4x256x128) S4x256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2000x128.size a ≤ S4x50000x128.size a
  hwx1_0 : ∀ i : grid1.Coords, EltTy.bits .bf16 = 32 ∨ (Rect.block (s := S4x50000x128) S4x2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x16.size a ≤ S4x128x16.size a
  hwx1_1 : ∀ i : grid1.Coords, EltTy.bits .bf16 = 32 ∨ (Rect.block (s := S4x128x16) S4x128x16.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S50000x16.size a
  hwx1_3 : ∀ i : grid1.Coords, EltTy.bits .f32 = 32 ∨ (Rect.block (s := S50000x16) S2000x16.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S200000x256_S800000x1_S800000x256_1_0_0_1 : ScatterDims S200000x256 S800000x1 S800000x256 where
  updateWindowDims := [1]
  insertedWindowDims := [0]
  scatterDimsToOperandDims := [0]
  indexVectorDim := 1
  wf := scatter_S200000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_v48) S4x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S4x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v69) S4x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S4x128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S1024x128 : Shape := ⟨2, ![1024, 128]⟩
abbrev S128 : Shape := ⟨1, ![128]⟩
abbrev S512x16 : Shape := ⟨2, ![512, 16]⟩
abbrev S16 : Shape := ⟨1, ![16]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S200000x256 : Shape := ⟨2, ![200000, 256]⟩
abbrev S4x50000x256 : Shape := ⟨3, ![4, 50000, 256]⟩
abbrev S50000x4x256 : Shape := ⟨3, ![50000, 4, 256]⟩
abbrev S50000x1024 : Shape := ⟨2, ![50000, 1024]⟩
abbrev S50000x128 : Shape := ⟨2, ![50000, 128]⟩
abbrev S1x128 : Shape := ⟨2, ![1, 128]⟩
abbrev S800000x128 : Shape := ⟨2, ![800000, 128]⟩
abbrev S200000x128 : Shape := ⟨2, ![200000, 128]⟩
abbrev S4x50000x128 : Shape := ⟨3, ![4, 50000, 128]⟩
abbrev S50000x4x128 : Shape := ⟨3, ![50000, 4, 128]⟩
abbrev S50000x512 : Shape := ⟨2, ![50000, 512]⟩
abbrev S50000x16 : Shape := ⟨2, ![50000, 16]⟩
abbrev S1x16 : Shape := ⟨2, ![1, 16]⟩
abbrev S50000x1 : Shape := ⟨2, ![50000, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .i32⟩
  | .hbm, ⟨3, _⟩ => ⟨S1024x128, .f32⟩
  | .hbm, ⟨4, _⟩ => ⟨S128, .f32⟩
  | .hbm, ⟨5, _⟩ => ⟨S512x16, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S800000x1, .f32⟩
  | .hbm, ⟨60, _⟩ => ⟨S800000x256, .f32⟩
  | .hbm, ⟨61, _⟩ => ⟨S800000x256, .f32⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S_, .f32⟩
  | .hbm, ⟨67, _⟩ => ⟨S200000x256, .f32⟩
  | .hbm, ⟨68, _⟩ => ⟨S800000x1, .i32⟩
  | .hbm, ⟨69, _⟩ => ⟨S200000x256, .f32⟩
  | .hbm, ⟨70, _⟩ => ⟨S4x50000x256, .f32⟩
  | .hbm, ⟨71, _⟩ => ⟨S50000x4x256, .f32⟩
  | .hbm, ⟨72, _⟩ => ⟨S50000x1024, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S800000x1, .f32⟩
  | .hbm, ⟨87, _⟩ => ⟨S800000x128, .f32⟩
  | .hbm, ⟨88, _⟩ => ⟨S800000x128, .f32⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S_, .f32⟩
  | .hbm, ⟨94, _⟩ => ⟨S200000x128, .f32⟩
  | .hbm, ⟨95, _⟩ => ⟨S800000x1, .i32⟩
  | .hbm, ⟨96, _⟩ => ⟨S200000x128, .f32⟩
  | .hbm, ⟨97, _⟩ => ⟨S4x50000x128, .f32⟩
  | .hbm, ⟨98, _⟩ => ⟨S50000x4x128, .f32⟩
  | .hbm, ⟨99, _⟩ => ⟨S50000x512, .f32⟩
  | .hbm, ⟨100, _⟩ => ⟨S50000x16, .f32⟩
  | .hbm, ⟨101, _⟩ => ⟨S1x16, .f32⟩
  | .hbm, ⟨102, _⟩ => ⟨S50000x16, .f32⟩
  | .hbm, ⟨103, _⟩ => ⟨S50000x16, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x16, .f32⟩
  | .hbm, ⟨111, _⟩ => ⟨S50000x16, .f32⟩
  | .hbm, ⟨112, _⟩ => ⟨S50000x16, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x1, .f32⟩
  | .hbm, ⟨117, _⟩ => ⟨S50000x16, .f32⟩
  | .hbm, ⟨118, _⟩ => ⟨S50000x16, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_c_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_cst : Ref sig .tc := ⟨.hbm, 104, rfl⟩
abbrev main_call1_v0 : Ref sig .tc := ⟨.hbm, 105, rfl⟩
abbrev main_call1_cst_0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_cst_1 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_v10 : Ref sig .tc := ⟨.hbm, 117, rfl⟩
abbrev main_v77 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S200000x256 : S_.BroadcastsInDim S200000x256 (![] : Fin 0 → Fin S200000x256.rank)
  shapeCasts_S200000x256_S4x50000x256 : S200000x256.ShapeCasts S4x50000x256
  transposes_S4x50000x256_S50000x4x256_1_0_2 : S4x50000x256.Transposes [1, 0, 2] S50000x4x256
  shapeCasts_S50000x4x256_S50000x1024 : S50000x4x256.ShapeCasts S50000x1024
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  shapeCasts_S200000x128_S4x50000x128 : S200000x128.ShapeCasts S4x50000x128
  transposes_S4x50000x128_S50000x4x128_1_0_2 : S4x50000x128.Transposes [1, 0, 2] S50000x4x128
  shapeCasts_S50000x4x128_S50000x512 : S50000x4x128.ShapeCasts S50000x512
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S200000x256_S800000x1_S800000x256_1_0_0_1_wf : ScatterDims.WF S200000x256 S800000x1 S800000x256 [1] [0] [0] 1
  dot_S50000x1024_S1024x128_S50000x128_1_0_0_1_n_n_wf : DotDims.WF S50000x1024 S1024x128 S50000x128 [1] [0] [0] [1] [] []
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  dot_S50000x512_S512x16_S50000x16_1_0_0_1_n_n_wf : DotDims.WF S50000x512 S512x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S200000x256_S800000x1_S800000x256_1_0_0_1 : ScatterDims S200000x256 S800000x1 S800000x256 where
  updateWindowDims := [1]
  insertedWindowDims := [0]
  scatterDimsToOperandDims := [0]
  indexVectorDim := 1
  wf := scatter_S200000x256_S800000x1_S800000x256_1_0_0_1_wf
def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S50000x512_S512x16_S50000x16_1_0_0_1_n_n : DotDims S50000x512 S512x16 S50000x16 where
  lhsContracting := [1]
  rhsContracting := [0]
  lhsNonContracting := [0]
  rhsNonContracting := [1]
  lhsBatch := []
  rhsBatch := []
  wf := dot_S50000x512_S512x16_S50000x16_1_0_0_1_n_n_wf

class Facts : Prop extends Facts₀ where

variable [Facts]
-- ==== Proof.SecondAgg.lean ====
/-
  The second layer's aggregate as a function of the first layer's output.

  With h the first layer's output (one row of 128 features per node), the message on edge e is row col(e) of h scaled by the
  edge's normalisation, and the aggregate adds each message into row relation(e) * 50000 + row(e) of a matrix of 200000 rows,
  which is then read as four matrices of 50000 rows, one per relation. The index vectors and the normalisation depend on the
  two integer inputs only; h enters through the one gather.
-/
import proofs.«116056_j30640296689801_1_alg».proof.Proof.RefRead

noncomputable section

namespace Cert.ReferenceIdeal.Agg

open Idealize.ShloMosaic Idealize.ShloMosaic.TcCoe Idealize.SL.Sem
open Cert.ReferenceIdeal Cert.ReferenceIdeal.Gen Cert.ReferenceIdeal.ReadP

variable {F : FTy → Type} [FloatOps F]

/-- Gather the rows of h at the edges' sources, scale each by its edge's normalisation, add them into the rows numbered by
    (relation, destination), and read the result as one matrix per relation. -/
def secondAgg (h : (⟨S50000x128, .f32⟩ : BufTy).Contents (Elt F)) (x1 : (⟨S2x800000, .i32⟩ : BufTy).Contents (Elt F))
    (x2 : (⟨S800000, .i32⟩ : BufTy).Contents (Elt F)) : (⟨S4x50000x128, .f32⟩ : BufTy).Contents (Elt F) :=
  shapeCast _ (Host.scatterAdd scatter_S200000x128_S800000x1_S800000x128_1_0_0_1 (val_main_v67 (F := F)) (val_main_v68 (F := F) x1 x2)
    (mulf (Host.gather gather_S50000x128_S800000x1_S800000x128_1_0_n_n_0_1_1128 h (val_main_v59 (F := F) x1)) (val_main_v62 (F := F) x1)))
    shapeCasts_S200000x128_S4x50000x128

/-- The reference's second aggregate is that function of its first layer's output. -/
theorem val_main_v70_eq (x0 : (⟨S50000x256, .f32⟩ : BufTy).Contents (Elt F)) (x1 : (⟨S2x800000, .i32⟩ : BufTy).Contents (Elt F))
    (x2 : (⟨S800000, .i32⟩ : BufTy).Contents (Elt F)) (x3 : (⟨S1024x128, .f32⟩ : BufTy).Contents (Elt F))
    (x4 : (⟨S128, .f32⟩ : BufTy).Contents (Elt F)) :
    val_main_v70 (F := F) x0 x1 x2 x3 x4 = secondAgg (val_main_v53 (F := F) x0 x1 x2 x3 x4) x1 x2 := rfl

end Cert.ReferenceIdeal.Agg

end
-- ==== Proof.RelLayer.lean ====
/-
  The mathematics of one layer of a relation-wise graph network, on the extended reals.

  A layer takes, for each of four relations r, a matrix A r of N rows (row i holds the messages aggregated into node i
  over the edges of relation r) and a weight block W r, and produces for node i and output feature j

      lin A W b i j  =  (sum over r, sum over c of  A r i c * W r c j)  +  b j.

  The last layer is followed by a row-wise log-softmax: with M the maximum of a row (taken from minus infinity),

      logSoftmax X i j  =  (X i j - M) - log (sum over c of exp (X i c - M)).

  Only commutativity and associativity of addition on the extended reals are used below: a sum over 4 * n terms is the
  sum of its four consecutive stretches of n terms. No distributivity, no cancellation, hence no finiteness.
-/
import Idealize.ShloMosaic.PureOps.Ideal.Laws
import Idealize.ShloMosaic.Lib.ValueIdx

noncomputable section

open scoped BigOperators

namespace RelLayer

open Idealize.ShloMosaic Idealize.ShloMosaic.ValueIdx

variable {N fin hout : ℕ}

/-- Entry (i, j) of the layer: over the four relations and the input features, aggregate times weight, plus the bias. -/
def lin (A : (⟨3, ![4, N, fin]⟩ : Shape).Idx → EReal) (W : (⟨3, ![4, fin, hout]⟩ : Shape).Idx → EReal)
    (b : (⟨1, ![hout]⟩ : Shape).Idx → EReal) (i : Fin N) (j : Fin hout) : EReal :=
  (∑ r : Fin 4, ∑ c : Fin fin, A (ix3 r i c) * W (ix3 r c j)) + b (ix1 j)

/-- The layer as a whole array. -/
def linArr (A : (⟨3, ![4, N, fin]⟩ : Shape).Idx → EReal) (W : (⟨3, ![4, fin, hout]⟩ : Shape).Idx → EReal)
    (b : (⟨1, ![hout]⟩ : Shape).Idx → EReal) : (⟨2, ![N, hout]⟩ : Shape).Idx → EReal :=
  fun i => lin A W b (i 0) (i 1)

theorem linArr_apply (A : (⟨3, ![4, N, fin]⟩ : Shape).Idx → EReal) (W : (⟨3, ![4, fin, hout]⟩ : Shape).Idx → EReal)
    (b : (⟨1, ![hout]⟩ : Shape).Idx → EReal) (i : Fin N) (j : Fin hout) : linArr A W b (ix2 i j) = lin A W b i j := rfl

/-- The largest of n extended reals, folded from the value of the word that spells minus infinity. -/
def rowMax {n : ℕ} (x : Fin n → EReal) : EReal :=
  (Finset.univ : Finset (Fin n)).fold max (Ideal.ofBits .f32 0xFF800000#32) x

/-- The fold is at least its starting value, so taking the maximum with that value again changes nothing. -/
theorem max_init_rowMax {n : ℕ} (x : Fin n → EReal) : max (Ideal.ofBits .f32 0xFF800000#32) (rowMax x) = rowMax x := by
  apply max_eq_right
  unfold rowMax
  exact (Finset.le_fold_max _).mpr (Or.inl le_rfl)

/-- Entry (i, j) of the row-wise log-softmax. -/
def logSoftmax {n : ℕ} (X : (⟨2, ![N, n]⟩ : Shape).Idx → EReal) (i : Fin N) (j : Fin n) : EReal :=
  (X (ix2 i j) - rowMax fun c => X (ix2 i c))
    - Ideal.log (∑ c : Fin n, Ideal.exp (X (ix2 i c) - rowMax fun c' => X (ix2 i c')))

/-- The log-softmax as a whole array. -/
def logSoftmaxArr {n : ℕ} (X : (⟨2, ![N, n]⟩ : Shape).Idx → EReal) : (⟨2, ![N, n]⟩ : Shape).Idx → EReal :=
  fun i => logSoftmax X (i 0) (i 1)

theorem logSoftmaxArr_apply {n : ℕ} (X : (⟨2, ![N, n]⟩ : Shape).Idx → EReal) (i : Fin N) (j : Fin n) :
    logSoftmaxArr X (ix2 i j) = logSoftmax X i j := rfl

/-- A sum over 4 * n terms is the sum, over its four consecutive stretches of n terms, of each stretch's sum. -/
theorem sum_four_stretches {M : Type*} [AddCommMonoid M] (n : ℕ) (g : Fin (4 * n) → M) :
    ∑ k, g k = ∑ r : Fin 4, ∑ c : Fin n, g (finProdFinEquiv (r, c)) := by
  rw [← finProdFinEquiv.sum_comp, Fintype.sum_prod_type]

/-- Term c of stretch r is term c + n * r. -/
theorem stretch_val (n : ℕ) (r : Fin 4) (c : Fin n) : (finProdFinEquiv (r, c) : Fin (4 * n)).val = c.val + n * r.val := rfl

/-- Four partial sums added one after another onto zero are the sum over the four. -/
theorem chain_four {M : Type*} [AddCommMonoid M] (s : Fin 4 → M) : (((0 + s 0) + s 1) + s 2) + s 3 = ∑ r : Fin 4, s r := by
  rw [Fin.sum_univ_four, zero_add]

end RelLayer

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Region0.lean ====
/-
  Region one of the kernel (the first layer's "concat + linear"): what its output array holds after the run, as one
  function of the three arrays it reads. Each grid point t computes rows 2000 t .. 2000 t + 1999; row i of the result is
  RelLayer.lin of row i of the four aggregates, the four weight blocks and the bias.
-/
import proofs.«116056_j30640296689801_1_alg».proof.Proof.Gen.KernelIdeal.Frame
import proofs.«116056_j30640296689801_1_alg».proof.Proof.RelLayer
import proofs.«116056_j30640296689801_1_alg».proof.Proof.LibRowLayers

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

open scoped BigOperators

/-! ## One product on the matrix unit, read at an entry -/

/-- The left operand's row coordinate is the output's row. -/
private theorem prod_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contracted one. -/
private theorem prod_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the contracted one. -/
private theorem prod_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the output's column. -/
private theorem prod_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A 2000×256 matrix times a 256×128 matrix, accumulated onto zeros, at (p, j): the sum over the 256 shared
    coordinates of the products of the entries. -/
private theorem product_apply (A : FVec Ideal S2000x256 .bf16) (B : FVec Ideal S256x128 .bf16) (p : Fin 2000) (j : Fin 128) :
    matmul dot_S2000x256_S256x128_S2000x128_1_0_0_1_n_n none A B (constant S2000x128 .f32 0x00000000#32) (ix2 p j)
      = ∑ c : Fin 256, A (ix2 p c) * B (ix2 c j) := by
  refine (Ideal.matmul_constant_zero_apply dot_S2000x256_S256x128_S2000x128_1_0_0_1_n_n none A B (ix2 p j)).trans ?_
  rw [← Equiv.sum_comp (contrEquiv1 dot_S2000x256_S256x128_S2000x128_1_0_0_1_n_n 256 rfl rfl).symm]
  refine Finset.sum_congr rfl fun c _ => ?_
  have hc := contrEquiv1_symm_val dot_S2000x256_S256x128_S2000x128_1_0_0_1_n_n 256 rfl rfl c
  have el : dot_S2000x256_S256x128_S2000x128_1_0_0_1_n_n.lhsIdx (ix2 p j) ((contrEquiv1 dot_S2000x256_S256x128_S2000x128_1_0_0_1_n_n 256 rfl rfl).symm c) = ix2 p c := funext fun a => Fin.ext (by
    match a with
    | ⟨0, _⟩ => exact prod_lhs_0 _ _
    | ⟨1, _⟩ => exact (prod_lhs_1 _ _).trans hc)
  have er : dot_S2000x256_S256x128_S2000x128_1_0_0_1_n_n.rhsIdx (ix2 p j) ((contrEquiv1 dot_S2000x256_S256x128_S2000x128_1_0_0_1_n_n 256 rfl rfl).symm c) = ix2 c j := funext fun a => Fin.ext (by
    match a with
    | ⟨0, _⟩ => exact (prod_rhs_0 _ _).trans hc
    | ⟨1, _⟩ => exact prod_rhs_1 _ _)
  rw [el, er]

/-! ## The slabs the body loads, read at an entry -/

/-- Slab o of the block of aggregates, flattened to a matrix, at (p, c): aggregate o's entry (p, c). -/
private theorem aggSlab_apply (x0 : Vec Ideal S4x2000x256 .bf16) (o : ℕ) (ho : o < 4)
    (inb : ∀ a, (![o, 0, 0] : Fin 3 → ℕ) a + S1x2000x256.size a ≤ S4x2000x256.size a) (p : Fin 2000) (c : Fin 256) :
    shapeCast S2000x256 (View.ld x0 (Rect.unit (s := S4x2000x256) ![o, 0, 0] S1x2000x256.size inb)) shapeCasts_S1x2000x256_S2000x256 (ix2 p c)
      = x0 (ix3 ⟨o, ho⟩ p c) := by
  refine (shapeCast_apply _ shapeCasts_S1x2000x256_S2000x256 (ix2 p c) (ix3 (0 : Fin 1) p c) (by
    rw [Shape.rowMajor_val_three, Shape.rowMajor_val_two]
    show ((0 : ℕ) * 2000 + p.val) * 256 + c.val = p.val * 256 + c.val; omega)).trans ?_
  show x0 _ = x0 _
  congr 1
  funext a; apply Fin.ext
  match a with
  | ⟨0, _⟩ => show o + 1 * 0 = o; omega
  | ⟨1, _⟩ => show 0 + 1 * p.val = p.val; omega
  | ⟨2, _⟩ => show 0 + 1 * c.val = c.val; omega

/-- Slab o of the weights, flattened to a matrix, at (c, j): weight block o's entry (c, j). -/
private theorem weightSlab_apply (x1 : Vec Ideal S4x256x128 .bf16) (o : ℕ) (ho : o < 4)
    (inb : ∀ a, (![o, 0, 0] : Fin 3 → ℕ) a + S1x256x128.size a ≤ S4x256x128.size a) (c : Fin 256) (j : Fin 128) :
    shapeCast S256x128 (View.ld x1 (Rect.unit (s := S4x256x128) ![o, 0, 0] S1x256x128.size inb)) shapeCasts_S1x256x128_S256x128 (ix2 c j)
      = x1 (ix3 ⟨o, ho⟩ c j) := by
  refine (shapeCast_apply _ shapeCasts_S1x256x128_S256x128 (ix2 c j) (ix3 (0 : Fin 1) c j) (by
    rw [Shape.rowMajor_val_three, Shape.rowMajor_val_two]
    show ((0 : ℕ) * 256 + c.val) * 128 + j.val = c.val * 128 + j.val; omega)).trans ?_
  show x1 _ = x1 _
  congr 1
  funext a; apply Fin.ext
  match a with
  | ⟨0, _⟩ => show o + 1 * 0 = o; omega
  | ⟨1, _⟩ => show 0 + 1 * c.val = c.val; omega
  | ⟨2, _⟩ => show 0 + 1 * j.val = j.val; omega

/-! ## The body's result at an entry -/

/-- The zero offsets on two axes, and on one: a block loaded or stored whole starts at 0 on every axis. -/
private theorem zeros2 : (![0, 0] : Fin 2 → Nat) = fun _ => 0 := funext fun a => by fin_cases a <;> rfl
private theorem zeros1 : (![0] : Fin 1 → Nat) = fun _ => 0 := funext fun a => by fin_cases a; rfl

/-- What a grid point leaves in its output block, at row p and column j of the block: the layer's entry (p, j)
    computed from the block of aggregates, the weights and the bias. The four products are added one after
    another onto a zero, then the bias row. -/
private theorem out_apply (x0 : Vec Ideal S4x2000x256 .bf16) (x1 : Vec Ideal S4x256x128 .bf16) (x2 : Vec Ideal S128 .f32)
    (p : Fin 2000) (j : Fin 128) :
    out0_3 x0 x1 x2 (ix2 p j) = RelLayer.lin (N := 2000) (fin := 256) (hout := 128) x0 x1 x2 p j := by
  unfold out0_3
  rw [View.canon_unit_zero zeros2]
  unfold k0_pay1
  simp only [addf_apply, product_apply, broadcast_apply,
    aggSlab_apply x0 0 (by omega) inb_S4x2000x256_S1x2000x256_0_0_0, aggSlab_apply x0 1 (by omega) inb_S4x2000x256_S1x2000x256_1_0_0,
    aggSlab_apply x0 2 (by omega) inb_S4x2000x256_S1x2000x256_2_0_0, aggSlab_apply x0 3 (by omega) inb_S4x2000x256_S1x2000x256_3_0_0,
    weightSlab_apply x1 0 (by omega) inb_S4x256x128_S1x256x128_0_0_0, weightSlab_apply x1 1 (by omega) inb_S4x256x128_S1x256x128_1_0_0,
    weightSlab_apply x1 2 (by omega) inb_S4x256x128_S1x256x128_2_0_0, weightSlab_apply x1 3 (by omega) inb_S4x256x128_S1x256x128_3_0_0]
  rw [RowLayers.biasRow_apply, View.ld_unit_zero (S := S128) zeros1]
  show Ideal.ofBits .f32 0x00000000#32 + _ + _ + _ + _ + _ = _
  rw [Ideal.ofBits_zero_f32]
  exact congrArg (· + x2 (ix1 j)) (RelLayer.chain_four (fun r : Fin 4 => ∑ c : Fin 256, x0 (ix3 r p c) * x1 (ix3 r c j)))

variable (V : (c : Dev nD) → (b : Ref sig .tc) → Buf (Elt Ideal) ((c : Thread nD τ).loc b))

/-! ## From the blocks to the array -/

/-- The index maps over the 25 grid points: point t writes block row t of the output, reads block row t of the
    aggregates (all four, all features) and the one block that is all of the weights and all of the bias. -/
private theorem index_facts : ∀ t : Fin cfg0.N,
    win0_3.index t (0 : Fin 2) = t.val ∧ win0_3.index t (1 : Fin 2) = 0
    ∧ win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0 :=
  (by decide +kernel : ∀ t : Fin grid0.N, _)

/-- Point t's block of the aggregates is rows 2000 t .. 2000 t + 1999 of each of the four. -/
private theorem aggBlock_apply (c : Dev nD) (t : Fin cfg0.N) (x : S4x2000x256.Idx) (k : S4x50000x256.Idx)
    (h0 : (k 0).val = (x 0).val) (h1 : (k 1).val = 2000 * t.val + (x 1).val) (h2 : (k 2).val = (x 2).val) :
    (iblk0 V c 0 t : Vec Ideal S4x2000x256 .bf16) x = (V c main_v48 : S4x50000x256.Idx → EReal) k := by
  obtain ⟨-, -, e0, e1, e2, -⟩ := index_facts t
  unfold iblk0
  show V c main_v48 _ = V c main_v48 _
  congr 1
  funext a; apply Fin.ext
  match a with
  | ⟨0, _⟩ => show win0_0.index t (0 : Fin 3) * 4 + 1 * (x 0).val = (k 0).val; rw [e0, h0]; omega
  | ⟨1, _⟩ => show win0_0.index t (1 : Fin 3) * 2000 + 1 * (x 1).val = (k 1).val; rw [e1, h1]; omega
  | ⟨2, _⟩ => show win0_0.index t (2 : Fin 3) * 256 + 1 * (x 2).val = (k 2).val; rw [e2, h2]; omega

/-- Every point's block of the weights is all of the weights. -/
private theorem weightBlock_eq (c : Dev nD) (t : Fin cfg0.N) :
    (iblk0 V c 1 t : Vec Ideal S4x256x128 .bf16) = (V c main_v50 : S4x256x128.Idx → EReal) := by
  obtain ⟨-, -, -, -, -, e0, e1, e2, -⟩ := index_facts t
  funext x
  unfold iblk0
  show V c main_v50 _ = V c main_v50 _
  congr 1
  funext a; apply Fin.ext
  match a with
  | ⟨0, _⟩ => show win0_1.index t (0 : Fin 3) * 4 + 1 * (x 0).val = (x 0).val; rw [e0]; omega
  | ⟨1, _⟩ => show win0_1.index t (1 : Fin 3) * 256 + 1 * (x 1).val = (x 1).val; rw [e1]; omega
  | ⟨2, _⟩ => show win0_1.index t (2 : Fin 3) * 128 + 1 * (x 2).val = (x 2).val; rw [e2]; omega

/-- Every point's block of the bias is all of the bias. -/
private theorem biasBlock_eq (c : Dev nD) (t : Fin cfg0.N) :
    (iblk0 V c 2 t : Vec Ideal S128 .f32) = (V c main_arg4 : S128.Idx → EReal) := by
  obtain ⟨-, -, -, -, -, -, -, -, e0⟩ := index_facts t
  funext x
  unfold iblk0
  show V c main_arg4 _ = V c main_arg4 _
  congr 1
  funext a; apply Fin.ext
  match a with
  | ⟨0, _⟩ => show win0_2.index t (0 : Fin 1) * 128 + 1 * (x 0).val = (x 0).val; rw [e0]; omega

/-- A block of 2000 rows computed from rows 2000 b .. of the aggregates holds rows 2000 b .. of the layer: entry
    y of the block is entry i of the whole layer when i is y moved down by 2000 b rows. -/
private theorem blockRows (X0 : S4x50000x256.Idx → EReal) (X1 : S4x256x128.Idx → EReal) (X2 : S128.Idx → EReal)
    (x0 : Vec Ideal S4x2000x256 .bf16) (x1 : Vec Ideal S4x256x128 .bf16) (x2 : Vec Ideal S128 .f32) (b : ℕ)
    (h0 : ∀ (x : S4x2000x256.Idx) (k : S4x50000x256.Idx), (k 0).val = (x 0).val → (k 1).val = 2000 * b + (x 1).val →
      (k 2).val = (x 2).val → x0 x = X0 k)
    (h1 : x1 = X1) (h2 : x2 = X2) (y : S2000x128.Idx) (i : S50000x128.Idx)
    (hi0 : (i 0).val = 2000 * b + (y 0).val) (hi1 : (i 1).val = (y 1).val) :
    out0_3 x0 x1 x2 y = RelLayer.linArr (N := 50000) (fin := 256) (hout := 128) X0 X1 X2 i := by
  obtain ⟨p, j, rfl⟩ : ∃ (p : Fin 2000) (j : Fin 128), y = ix2 p j := ⟨y 0, y 1, eq_ix2 y⟩
  obtain ⟨q, j', rfl⟩ : ∃ (q : Fin 50000) (j' : Fin 128), i = ix2 q j' := ⟨i 0, i 1, eq_ix2 i⟩
  obtain rfl : j' = j := Fin.ext hi1
  rw [out_apply, RelLayer.linArr_apply]
  subst h1 h2
  unfold RelLayer.lin
  congr 1
  refine Finset.sum_congr rfl fun r _ => Finset.sum_congr rfl fun f _ => ?_
  rw [h0 (ix3 r p f) (ix3 r q f) rfl hi0 rfl]

/-- What point t writes back is block t of the layer of the three arrays as the region finds them. -/
private theorem flushed_eq (c : Dev nD) (t : Fin cfg0.N) :
    (dat0 (F := Ideal) V c).flushed 3 t = ((cfg0.win 3).blk t).view.read (Elt Ideal)
      (RelLayer.linArr (N := 50000) (fin := 256) (hout := 128) (V c main_v48) (V c main_v50) (V c main_arg4)) := by
  show (cfg0.win 3).cut (grid0.coords t) ((dat0 V c).after 3 t) = _
  rw [after0_3]
  obtain ⟨e0, e1, -⟩ := index_facts t
  funext y
  refine blockRows (V c main_v48) (V c main_v50) (V c main_arg4) (iblk0 V c 0 t) (iblk0 V c 1 t) (iblk0 V c 2 t) t.val
    (fun x k h0 h1 h2 => aggBlock_apply V c t x k h0 h1 h2) (weightBlock_eq V c t) (biasBlock_eq V c t)
    ((cfg0.win 3).xinj (grid0.coords t) y) (((cfg0.win 3).blk t).view.emb y) ?_ ?_
  · show win0_3.index t (0 : Fin 2) * 2000 + 1 * (y 0).val = 2000 * t.val + (y 0).val
    rw [e0]; omega
  · show win0_3.index t (1 : Fin 2) * 128 + 1 * (y 1).val = (y 1).val
    rw [e1]; omega

/-- An index of the output is in point t's block when its row is among rows 2000 t .. 2000 t + 1999 (and its column
    among all 128). -/
private theorem mem_outBlock (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v51).slice (win0_3.rect t)).set ↔ _
  rw [View.set_slice_whole, Rect.mem_set_unit]
  exact Iff.rfl

/-- Every entry of the output is written: row q belongs to the block of point q / 2000. -/
private theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  obtain ⟨e0, e1, -⟩ := index_facts t
  refine ⟨t, flush0_3 t, ?_⟩
  rw [mem_outBlock]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 128 ≤ (i 1).val ∧ (i 1).val < win0_3.index t (1 : Fin 2) * 128 + 128
    rw [e1]; omega

/-- The first region's output array after its 25 grid points: the relation-wise linear layer of the arrays it reads. -/
theorem arr0 (c : Dev nD) :
    (dat0 (F := Ideal) V c).arrAt 3 cfg0.N
      = RelLayer.linArr (N := 50000) (fin := 256) (hout := 128) (V c main_v48) (V c main_v50) (V c main_arg4) :=
  (dat0 V c).arrAt_eq_of_cover 3 _ (fun t _ => flushed_eq V c t) covered

end Cert.KernelIdeal.RegionValue

end
-- ==== Proof.LibLogSoftmax.lean ====
/-
  The row-wise log-softmax read at an index, at the exact instance (floats read as extended reals), in its two spellings.

  Tiled (the vector unit): the row maximum by a lane reduction from minus infinity, cast to a column and broadcast across the
  row; the shifted row exponentiated and summed by a lane reduction from zero, cast to a column, its logarithm broadcast
  across the row and subtracted from the shifted row.

  Whole-array (the host): the same with reduce / broadcast_in_dim, and with one more maximum of the row maximum against a
  vector of minus infinities, which changes nothing: a maximum folded from minus infinity is at least minus infinity.

  Both read, at row i and column j, (x i j - M) - log (sum over c of exp (x i c - M)), M the row's maximum: RelLayer.logSoftmax.
-/
import proofs.«116056_j30640296689801_1_alg».proof.Proof.RelLayer
import proofs.«116056_j30640296689801_1_alg».proof.Proof.LibRowLayers

noncomputable section

open scoped BigOperators

namespace RowSoftmax

open Idealize.ShloMosaic Idealize.ShloMosaic.ValueIdx

variable {m n : ℕ}

/-! ## The vector unit's spelling -/

/-- The lane maximum of row p, folded from minus infinity, is the row's maximum. -/
theorem tiledRowMax_apply (hred : (⟨2, ![m, n]⟩ : Shape).Reduces [1] ⟨1, ![m]⟩) (hfmt : FKind.Formats FTy.f32)
    (hmax : (0xFF800000#32 : BitVec FTy.f32.bits) = FKind.maximumf.neutral .f32 hfmt)
    (x : FVec Ideal ⟨2, ![m, n]⟩ .f32) (p : Fin m) :
    multiReduction .maximumf [1] ⟨1, ![m]⟩ x 0xFF800000#32 hred hfmt hmax (ix1 p)
      = RelLayer.rowMax fun c => x (ix2 p c) := by
  refine (Ideal.multiReduction_maximumf_single x _ hred hfmt hmax (ix1 p)).trans ?_
  show (Finset.univ : Finset (Fin n)).fold max (Ideal.ofBits .f32 0xFF800000#32) (x ∘ hred.lift (ix1 p)) = _
  unfold RelLayer.rowMax
  refine congrArg (fun f => (Finset.univ : Finset (Fin n)).fold max (Ideal.ofBits .f32 0xFF800000#32) f) ?_
  funext c
  show x (hred.lift (ix1 p) c) = x (ix2 p c)
  rw [RowLayers.lift_cols]; rfl

/-- The row with its maximum subtracted: the maximum cast to a column and broadcast across the row, at (p, j). -/
theorem tiledShift_apply (hred : (⟨2, ![m, n]⟩ : Shape).Reduces [1] ⟨1, ![m]⟩) (hfmt : FKind.Formats FTy.f32)
    (hmax : (0xFF800000#32 : BitVec FTy.f32.bits) = FKind.maximumf.neutral .f32 hfmt)
    (hsc : (⟨1, ![m]⟩ : Shape).ShapeCasts ⟨2, ![m, 1]⟩) (hbc : (⟨2, ![m, 1]⟩ : Shape).Broadcasts ⟨2, ![m, n]⟩)
    (x : FVec Ideal ⟨2, ![m, n]⟩ .f32) (p : Fin m) (j : Fin n) :
    subf x (broadcastTo ⟨2, ![m, n]⟩ (shapeCast ⟨2, ![m, 1]⟩ (multiReduction .maximumf [1] ⟨1, ![m]⟩ x 0xFF800000#32 hred hfmt hmax) hsc) hbc)
        (ix2 p j)
      = x (ix2 p j) - RelLayer.rowMax fun c => x (ix2 p c) := by
  rw [subf_apply, RowLayers.broadcastColumn_apply, RowLayers.column_apply, tiledRowMax_apply]

/-- The lane sum of the exponentials of a row y, from zero, at row p. -/
theorem tiledExpSum_apply (hred : (⟨2, ![m, n]⟩ : Shape).Reduces [1] ⟨1, ![m]⟩) (hfmt : FKind.Formats FTy.f32)
    (hadd : (0x00000000#32 : BitVec FTy.f32.bits) = FKind.add.neutral .f32 hfmt)
    (y : FVec Ideal ⟨2, ![m, n]⟩ .f32) (p : Fin m) :
    multiReduction .add [1] ⟨1, ![m]⟩ (exp y) 0x00000000#32 hred hfmt hadd (ix1 p)
      = ∑ c : Fin n, Ideal.exp (y (ix2 p c)) := by
  refine (Ideal.multiReduction_add_single (exp y) _ hred hfmt hadd (ix1 p)).trans ?_
  refine Finset.sum_congr rfl fun c _ => ?_
  rw [RowLayers.lift_cols]; rfl

/-- The tiled spelling, at (p, j): with M the maximum of row p, (x p j - M) - log (sum over c of exp (x p c - M)).
    The outer difference is read entry by entry; its first term is the shifted row at (p, j); its second is the column
    of logarithms read at row p, whose argument is the lane sum of the exponentials of the shifted row, term by term. -/
theorem tiled_apply (hred : (⟨2, ![m, n]⟩ : Shape).Reduces [1] ⟨1, ![m]⟩) (hfmt : FKind.Formats FTy.f32)
    (hmax : (0xFF800000#32 : BitVec FTy.f32.bits) = FKind.maximumf.neutral .f32 hfmt)
    (hadd : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, n]⟩)
    (x : FVec Ideal ⟨2, ![m, n]⟩ .f32) (p : Fin m) (j : Fin n) :
    subf
        (subf x (broadcastTo ⟨2, ![m, n]⟩ (shapeCast ⟨2, ![m, 1]⟩ (multiReduction .maximumf [1] ⟨1, ![m]⟩ x 0xFF800000#32 hred hfmt hmax) hsc) hbc))
        (broadcastTo ⟨2, ![m, n]⟩
          (log (shapeCast ⟨2, ![m, 1]⟩
            (multiReduction .add [1] ⟨1, ![m]⟩
              (exp (subf x (broadcastTo ⟨2, ![m, n]⟩ (shapeCast ⟨2, ![m, 1]⟩ (multiReduction .maximumf [1] ⟨1, ![m]⟩ x 0xFF800000#32 hred hfmt hmax) hsc) hbc)))
              0x00000000#32 hred hfmt hadd) hsc)) hbc)
        (ix2 p j)
      = RelLayer.logSoftmax x p j := by
  rw [subf_apply, tiledShift_apply, RowLayers.broadcastColumn_apply]
  show _ - Ideal.log (shapeCast ⟨2, ![m, 1]⟩ _ hsc (ix2 p (0 : Fin 1))) = _
  rw [RowLayers.column_apply, tiledExpSum_apply]
  unfold RelLayer.logSoftmax
  refine congrArg (fun s => (x (ix2 p j) - RelLayer.rowMax fun c => x (ix2 p c)) - Ideal.log s) ?_
  refine Finset.sum_congr rfl fun c _ => ?_
  rw [tiledShift_apply]

/-! ## The host's spelling -/

/-- The host's logarithm, entry by entry. -/
theorem hostLog_apply {s : Shape} {φ : FTy} (a : FVec Ideal s φ) (i : s.Idx) : Host.log a i = Ideal.log (a i) := rfl

/-- The host's exponential, entry by entry. -/
theorem hostExp_apply {s : Shape} {φ : FTy} (a : FVec Ideal s φ) (i : s.Idx) : Host.exp a i = Ideal.exp (a i) := rfl

/-- The host's maximum of row i, reduced from the scalar minus infinity, is the row's maximum. -/
theorem hostRowMax_apply (hrt : (⟨2, ![m, n]⟩ : Shape).ReducesTo [1] ⟨1, ![m]⟩)
    (hred : (⟨2, ![m, n]⟩ : Shape).Reduces [1] ⟨1, ![m]⟩) (hu : 0 < (⟨0, ![]⟩ : Shape).numel)
    (X : FVec Ideal ⟨2, ![m, n]⟩ .f32) (i : Fin m) :
    Host.reduce FloatOps.maximumf X (constant (F := Ideal) ⟨0, ![]⟩ .f32 0xFF800000#32) hrt hu (ix1 i)
      = RelLayer.rowMax fun c => X (ix2 i c) := by
  refine (Host.reduce_eq_fold_single FloatOps.maximumf X _ hrt hred hu (ix1 i)).trans ?_
  show (Finset.univ : Finset (Fin n)).fold max (Ideal.ofBits .f32 0xFF800000#32) (X ∘ hred.lift (ix1 i)) = _
  unfold RelLayer.rowMax
  refine congrArg (fun f => (Finset.univ : Finset (Fin n)).fold max (Ideal.ofBits .f32 0xFF800000#32) f) ?_
  funext c
  show X (hred.lift (ix1 i) c) = X (ix2 i c)
  rw [RowLayers.lift_cols]; rfl

/-- The row with its maximum subtracted, the host's way: the reduced maximum is once more compared with a vector of
    minus infinities, which leaves it as it is, then made a column and broadcast across the row; at (i, j). -/
theorem hostShift_apply (hrt : (⟨2, ![m, n]⟩ : Shape).ReducesTo [1] ⟨1, ![m]⟩)
    (hred : (⟨2, ![m, n]⟩ : Shape).Reduces [1] ⟨1, ![m]⟩) (hu : 0 < (⟨0, ![]⟩ : Shape).numel)
    (hs : (⟨0, ![]⟩ : Shape).BroadcastsInDim ⟨1, ![m]⟩ ![])
    (h0 : (⟨1, ![m]⟩ : Shape).BroadcastsInDim ⟨2, ![m, 1]⟩ ![0])
    (h01 : (⟨2, ![m, 1]⟩ : Shape).BroadcastsInDim ⟨2, ![m, n]⟩ ![0, 1])
    (X : FVec Ideal ⟨2, ![m, n]⟩ .f32) (i : Fin m) (j : Fin n) :
    subf X (broadcastInDim ⟨2, ![m, n]⟩ ![0, 1] h01 (broadcastInDim ⟨2, ![m, 1]⟩ ![0] h0
        (maximumf (broadcastInDim ⟨1, ![m]⟩ ![] hs (constant (F := Ideal) ⟨0, ![]⟩ .f32 0xFF800000#32))
          (Host.reduce FloatOps.maximumf X (constant (F := Ideal) ⟨0, ![]⟩ .f32 0xFF800000#32) hrt hu))))
        (ix2 i j)
      = X (ix2 i j) - RelLayer.rowMax fun c => X (ix2 i c) := by
  rw [subf_apply, RowLayers.columnAcross_apply, RowLayers.columnBroadcast_apply, maximumf_apply,
    RowLayers.scalarBroadcast_apply, hostRowMax_apply hrt hred, RelLayer.max_init_rowMax]

/-- The host's sum of the exponentials of a row Y, from the scalar zero, at row i. -/
theorem hostExpSum_apply (hrt : (⟨2, ![m, n]⟩ : Shape).ReducesTo [1] ⟨1, ![m]⟩)
    (hred : (⟨2, ![m, n]⟩ : Shape).Reduces [1] ⟨1, ![m]⟩) (hu : 0 < (⟨0, ![]⟩ : Shape).numel)
    (Y : FVec Ideal ⟨2, ![m, n]⟩ .f32) (i : Fin m) :
    Host.reduceAdd (Host.exp Y) (constant (F := Ideal) ⟨0, ![]⟩ .f32 0x00000000#32) hrt hu (ix1 i)
      = ∑ c : Fin n, Ideal.exp (Y (ix2 i c)) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [RowLayers.lift_cols]; rfl

/-- The whole-array spelling, at (i, j): with M the maximum of row i, (X i j - M) - log (sum over c of exp (X i c - M)).
    The same reading as the tiled one; the extra maximum against minus infinity has already gone in the shifted row. -/
theorem host_apply (hrt : (⟨2, ![m, n]⟩ : Shape).ReducesTo [1] ⟨1, ![m]⟩) (hred : (⟨2, ![m, n]⟩ : Shape).Reduces [1] ⟨1, ![m]⟩)
    (hu : 0 < (⟨0, ![]⟩ : Shape).numel) (hs : (⟨0, ![]⟩ : Shape).BroadcastsInDim ⟨1, ![m]⟩ ![])
    (h0 : (⟨1, ![m]⟩ : Shape).BroadcastsInDim ⟨2, ![m, 1]⟩ ![0])
    (h01 : (⟨2, ![m, 1]⟩ : Shape).BroadcastsInDim ⟨2, ![m, n]⟩ ![0, 1])
    (X : FVec Ideal ⟨2, ![m, n]⟩ .f32) (i : Fin m) (j : Fin n) :
    subf
        (subf X (broadcastInDim ⟨2, ![m, n]⟩ ![0, 1] h01 (broadcastInDim ⟨2, ![m, 1]⟩ ![0] h0
          (maximumf (broadcastInDim ⟨1, ![m]⟩ ![] hs (constant (F := Ideal) ⟨0, ![]⟩ .f32 0xFF800000#32))
            (Host.reduce FloatOps.maximumf X (constant (F := Ideal) ⟨0, ![]⟩ .f32 0xFF800000#32) hrt hu)))))
        (broadcastInDim ⟨2, ![m, n]⟩ ![0, 1] h01
          (Host.log (broadcastInDim ⟨2, ![m, 1]⟩ ![0] h0
            (Host.reduceAdd
              (Host.exp (subf X (broadcastInDim ⟨2, ![m, n]⟩ ![0, 1] h01 (broadcastInDim ⟨2, ![m, 1]⟩ ![0] h0
                (maximumf (broadcastInDim ⟨1, ![m]⟩ ![] hs (constant (F := Ideal) ⟨0, ![]⟩ .f32 0xFF800000#32))
                  (Host.reduce FloatOps.maximumf X (constant (F := Ideal) ⟨0, ![]⟩ .f32 0xFF800000#32) hrt hu))))))
              (constant (F := Ideal) ⟨0, ![]⟩ .f32 0x00000000#32) hrt hu))))
        (ix2 i j)
      = RelLayer.logSoftmax X i j := by
  rw [subf_apply, hostShift_apply hrt hred, RowLayers.columnAcross_apply]
  rw [hostLog_apply, RowLayers.columnBroadcast_apply, hostExpSum_apply hrt hred]
  unfold RelLayer.logSoftmax
  refine congrArg (fun s => (X (ix2 i j) - RelLayer.rowMax fun c => X (ix2 i c)) - Ideal.log s) ?_
  refine Finset.sum_congr rfl fun c _ => ?_
  rw [hostShift_apply hrt hred]

end RowSoftmax

end
-- ==== Proof.Region1.lean ====
/-
  Region two of the kernel (the second layer's "concat + linear" with the row-wise log-softmax fused in): what its output array holds after the run, as one
  function of the three arrays it reads. Each grid point t computes rows 2000 t .. 2000 t + 1999; row i of the result is
  the log-softmax of row i of RelLayer.lin of the four aggregates, the four weight blocks and the bias.
-/
import proofs.«116056_j30640296689801_1_alg».proof.Proof.Gen.KernelIdeal.Frame
import proofs.«116056_j30640296689801_1_alg».proof.Proof.RelLayer
import proofs.«116056_j30640296689801_1_alg».proof.Proof.LibRowLayers
import proofs.«116056_j30640296689801_1_alg».proof.Proof.LibLogSoftmax

set_option maxRecDepth 16384

noncomputable section

namespace Cert.KernelIdeal.RegionValue2

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The matrix unit's product of one relation's stretch -/

/-- The left operand's index on its row axis is the output's row. -/
private theorem lhs_row (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
/-- The left operand's index on its contracted axis is the contraction's coordinate. -/
private theorem lhs_contr (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
/-- The right operand's index on its contracted axis is the contraction's coordinate. -/
private theorem rhs_contr (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
/-- The right operand's index on its column axis is the output's column. -/
private theorem rhs_col (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- A 2000×128 block times a 128×16 block, accumulated into the zero splat, at (p, j): the sum over the 128 contracted
    coordinates of the products of the entries. -/
private theorem blockProduct_apply (A : FVec Ideal S2000x128 .bf16) (B : FVec Ideal S128x16 .bf16) (p : Fin 2000) (j : Fin 16) :
    matmul dot_S2000x128_S128x16_S2000x16_1_0_0_1_n_n none A B (constant (F := Ideal) S2000x16 .f32 0x00000000#32) (ix2 p j)
      = ∑ c : Fin 128, A (ix2 p c) * B (ix2 c j) := by
  refine (Ideal.matmul_constant_zero_apply dot_S2000x128_S128x16_S2000x16_1_0_0_1_n_n none A B (ix2 p j)).trans ?_
  rw [← Equiv.sum_comp (contrEquiv1 dot_S2000x128_S128x16_S2000x16_1_0_0_1_n_n 128 rfl rfl).symm]
  refine Finset.sum_congr rfl fun c _ => ?_
  have hk := contrEquiv1_symm_val dot_S2000x128_S128x16_S2000x16_1_0_0_1_n_n 128 rfl rfl c
  have el : dot_S2000x128_S128x16_S2000x16_1_0_0_1_n_n.lhsIdx (ix2 p j) ((contrEquiv1 dot_S2000x128_S128x16_S2000x16_1_0_0_1_n_n 128 rfl rfl).symm c) = ix2 p c := funext fun a => Fin.ext (by
    match a with
    | ⟨0, _⟩ => exact lhs_row _ _
    | ⟨1, _⟩ => exact (lhs_contr _ _).trans hk)
  have er : dot_S2000x128_S128x16_S2000x16_1_0_0_1_n_n.rhsIdx (ix2 p j) ((contrEquiv1 dot_S2000x128_S128x16_S2000x16_1_0_0_1_n_n 128 rfl rfl).symm c) = ix2 c j := funext fun a => Fin.ext (by
    match a with
    | ⟨0, _⟩ => exact (rhs_contr _ _).trans hk
    | ⟨1, _⟩ => exact rhs_col _ _)
  rw [el, er]

/-- The same with each operand given with a leading axis of length one, dropped by a cast. -/
private theorem stretchProduct_apply (a : Vec Ideal S1x2000x128 .bf16) (w : Vec Ideal S1x128x16 .bf16) (p : Fin 2000) (j : Fin 16) :
    matmul dot_S2000x128_S128x16_S2000x16_1_0_0_1_n_n none (shapeCast S2000x128 a shapeCasts_S1x2000x128_S2000x128 : FVec Ideal S2000x128 .bf16)
        (shapeCast S128x16 w shapeCasts_S1x128x16_S128x16 : FVec Ideal S128x16 .bf16) (constant (F := Ideal) S2000x16 .f32 0x00000000#32) (ix2 p j)
      = ∑ c : Fin 128, a (ix3 (0 : Fin 1) p c) * w (ix3 (0 : Fin 1) c j) := by
  rw [blockProduct_apply]
  refine Finset.sum_congr rfl fun c _ => ?_
  rw [shapeCast_1ab_ab_apply, shapeCast_1ab_ab_apply]

/-! ## The linear part of the body -/

/-- The linear part at (p, j), for any nine operands: the four stretch products added one after another onto the zero
    splat, then the bias entry j. -/
private theorem linearPart_apply (a0 : Vec Ideal S1x2000x128 .bf16) (w0 : Vec Ideal S1x128x16 .bf16)
    (a1 : Vec Ideal S1x2000x128 .bf16) (w1 : Vec Ideal S1x128x16 .bf16)
    (a2 : Vec Ideal S1x2000x128 .bf16) (w2 : Vec Ideal S1x128x16 .bf16)
    (a3 : Vec Ideal S1x2000x128 .bf16) (w3 : Vec Ideal S1x128x16 .bf16) (b : Vec Ideal S16 .f32) (p : Fin 2000) (j : Fin 16) :
    k1_pay2 (F := Ideal) a0 w0 a1 w1 a2 w2 a3 w3 b (ix2 p j)
      = ((((0 + ∑ c : Fin 128, a0 (ix3 (0 : Fin 1) p c) * w0 (ix3 (0 : Fin 1) c j))
            + ∑ c : Fin 128, a1 (ix3 (0 : Fin 1) p c) * w1 (ix3 (0 : Fin 1) c j))
            + ∑ c : Fin 128, a2 (ix3 (0 : Fin 1) p c) * w2 (ix3 (0 : Fin 1) c j))
            + ∑ c : Fin 128, a3 (ix3 (0 : Fin 1) p c) * w3 (ix3 (0 : Fin 1) c j))
          + b (ix1 j) := by
  unfold k1_pay2
  simp only [addf_apply, broadcast_apply]
  rw [stretchProduct_apply, stretchProduct_apply, stretchProduct_apply, stretchProduct_apply, RowLayers.biasRow_apply]
  rw [show Scalar.ofBits (F := Ideal) .f32 0x00000000#32 = 0 from Ideal.ofBits_zero_f32]

/-! ## The loads of the body -/

/-- Stretch r of the aggregates' block, loaded as one 1×2000×128 slab, reads the block at (r, p, c). -/
private theorem aggLoad_apply (x0 : Vec Ideal S4x2000x128 .bf16) (r : Fin 4) (off : Fin 3 → ℕ) (hoff : off = ![r.val, 0, 0])
    (inb : ∀ a, off a + S1x2000x128.size a ≤ S4x2000x128.size a) (p : Fin 2000) (c : Fin 128) :
    (View.ld x0 (Rect.unit (s := S4x2000x128) off S1x2000x128.size inb) : Vec Ideal S1x2000x128 .bf16) (ix3 (0 : Fin 1) p c)
      = x0 (ix3 r p c) := by
  subst hoff
  show x0 _ = x0 _
  refine congrArg x0 (funext fun a => Fin.ext ?_)
  match a with
  | ⟨0, _⟩ => show r.val + 1 * 0 = r.val; omega
  | ⟨1, _⟩ => show 0 + 1 * p.val = p.val; omega
  | ⟨2, _⟩ => show 0 + 1 * c.val = c.val; omega

/-- Stretch r of the weights, loaded as one 1×128×16 slab, reads the weights at (r, c, j). -/
private theorem weightLoad_apply (x1 : Vec Ideal S4x128x16 .bf16) (r : Fin 4) (off : Fin 3 → ℕ) (hoff : off = ![r.val, 0, 0])
    (inb : ∀ a, off a + S1x128x16.size a ≤ S4x128x16.size a) (c : Fin 128) (j : Fin 16) :
    (View.ld x1 (Rect.unit (s := S4x128x16) off S1x128x16.size inb) : Vec Ideal S1x128x16 .bf16) (ix3 (0 : Fin 1) c j)
      = x1 (ix3 r c j) := by
  subst hoff
  show x1 _ = x1 _
  refine congrArg x1 (funext fun a => Fin.ext ?_)
  match a with
  | ⟨0, _⟩ => show r.val + 1 * 0 = r.val; omega
  | ⟨1, _⟩ => show 0 + 1 * c.val = c.val; omega
  | ⟨2, _⟩ => show 0 + 1 * j.val = j.val; omega

private theorem zero1 : (![0] : Fin 1 → Nat) = fun _ => 0 := funext fun a => by fin_cases a; rfl
private theorem zero2 : (![0, 0] : Fin 2 → Nat) = fun _ => 0 := funext fun a => by fin_cases a <;> rfl

/-- The linear part of the body on the three blocks, at (p, j): the relation-wise linear layer of the blocks. -/
private theorem linear_apply (x0 : Vec Ideal S4x2000x128 .bf16) (x1 : Vec Ideal S4x128x16 .bf16) (x2 : Vec Ideal S16 .f32)
    (p : Fin 2000) (j : Fin 16) :
    k1_pay2 (F := Ideal) (View.ld x0 r1_0) (View.ld x1 r1_1) (View.ld x0 r1_2) (View.ld x1 r1_3) (View.ld x0 r1_4) (View.ld x1 r1_5)
        (View.ld x0 r1_6) (View.ld x1 r1_7) (View.ld x2 r1_8) (ix2 p j)
      = RelLayer.lin (N := 2000) x0 x1 x2 p j := by
  rw [linearPart_apply]
  have a0 : ∀ c : Fin 128, (View.ld x0 r1_0 : Vec Ideal S1x2000x128 .bf16) (ix3 (0 : Fin 1) p c) = x0 (ix3 (0 : Fin 4) p c) :=
    fun c => aggLoad_apply x0 0 _ rfl _ p c
  have a1 : ∀ c : Fin 128, (View.ld x0 r1_2 : Vec Ideal S1x2000x128 .bf16) (ix3 (0 : Fin 1) p c) = x0 (ix3 (1 : Fin 4) p c) :=
    fun c => aggLoad_apply x0 1 _ rfl _ p c
  have a2 : ∀ c : Fin 128, (View.ld x0 r1_4 : Vec Ideal S1x2000x128 .bf16) (ix3 (0 : Fin 1) p c) = x0 (ix3 (2 : Fin 4) p c) :=
    fun c => aggLoad_apply x0 2 _ rfl _ p c
  have a3 : ∀ c : Fin 128, (View.ld x0 r1_6 : Vec Ideal S1x2000x128 .bf16) (ix3 (0 : Fin 1) p c) = x0 (ix3 (3 : Fin 4) p c) :=
    fun c => aggLoad_apply x0 3 _ rfl _ p c
  have w0 : ∀ c : Fin 128, (View.ld x1 r1_1 : Vec Ideal S1x128x16 .bf16) (ix3 (0 : Fin 1) c j) = x1 (ix3 (0 : Fin 4) c j) :=
    fun c => weightLoad_apply x1 0 _ rfl _ c j
  have w1 : ∀ c : Fin 128, (View.ld x1 r1_3 : Vec Ideal S1x128x16 .bf16) (ix3 (0 : Fin 1) c j) = x1 (ix3 (1 : Fin 4) c j) :=
    fun c => weightLoad_apply x1 1 _ rfl _ c j
  have w2 : ∀ c : Fin 128, (View.ld x1 r1_5 : Vec Ideal S1x128x16 .bf16) (ix3 (0 : Fin 1) c j) = x1 (ix3 (2 : Fin 4) c j) :=
    fun c => weightLoad_apply x1 2 _ rfl _ c j
  have w3 : ∀ c : Fin 128, (View.ld x1 r1_7 : Vec Ideal S1x128x16 .bf16) (ix3 (0 : Fin 1) c j) = x1 (ix3 (3 : Fin 4) c j) :=
    fun c => weightLoad_apply x1 3 _ rfl _ c j
  simp only [a0, a1, a2, a3, w0, w1, w2, w3]
  rw [View.ld_unit_zero (S := S16) zero1]
  exact congrArg (· + x2 (ix1 j)) (RelLayer.chain_four fun r : Fin 4 => ∑ c : Fin 128, x0 (ix3 r p c) * x1 (ix3 r c j))

/-! ## The log-softmax part of the body, and the whole body -/

/-- The second part of the body at (p, j): the row-wise log-softmax of its operand. -/
private theorem softmaxPart_apply (y : FVec Ideal S2000x16 .f32) (p : Fin 2000) (j : Fin 16) :
    k1_pay1 (F := Ideal) y (ix2 p j) = RelLayer.logSoftmax y p j := by
  unfold k1_pay1
  exact RowSoftmax.tiled_apply reduces_S2000x16_S2000 (.inl rfl) rfl rfl shapeCasts_S2000_S2000x1 broadcasts_S2000x1_S2000x16 y p j

/-- What the body leaves in the output block, from the three input blocks: the row-wise log-softmax of the linear layer of
    the blocks. -/
private theorem blockOut_eq (x0 : Vec Ideal S4x2000x128 .bf16) (x1 : Vec Ideal S4x128x16 .bf16) (x2 : Vec Ideal S16 .f32) :
    out1_3 (F := Ideal) x0 x1 x2 = RelLayer.logSoftmaxArr (RelLayer.linArr (N := 2000) x0 x1 x2) := by
  unfold out1_3
  rw [View.canon_unit_zero zero2]
  funext y
  obtain ⟨p, j, rfl⟩ : ∃ (p : Fin 2000) (j : Fin 16), y = ix2 p j := ⟨y 0, y 1, eq_ix2 y⟩
  rw [softmaxPart_apply, RelLayer.logSoftmaxArr_apply]
  refine congrArg (fun X => RelLayer.logSoftmax X p j) (funext fun i => ?_)
  obtain ⟨p', j', rfl⟩ : ∃ (p' : Fin 2000) (j' : Fin 16), i = ix2 p' j' := ⟨i 0, i 1, eq_ix2 i⟩
  rw [linear_apply, RelLayer.linArr_apply]

/-! ## A block of rows of the whole array -/

/-- Row p of a block's result is row i of the whole array's, when the block's aggregates on row p are the
    array's on row i: the linear layer's entry (i, j) reads row i of the aggregates only, and the log-softmax of a row
    reads that row only (its maximum and its sum range over the 16 columns of the one row). -/
private theorem blockRow_eq (A : Vec Ideal S4x50000x128 .bf16) (W : Vec Ideal S4x128x16 .bf16) (b : Vec Ideal S16 .f32)
    (x0 : Vec Ideal S4x2000x128 .bf16) (x1 : Vec Ideal S4x128x16 .bf16) (x2 : Vec Ideal S16 .f32)
    (p : Fin 2000) (i : Fin 50000) (j j' : Fin 16)
    (h0 : ∀ (r : Fin 4) (c : Fin 128), x0 (ix3 r p c) = A (ix3 r i c)) (h1 : x1 = W) (h2 : x2 = b) (hj : j' = j) :
    RelLayer.logSoftmax (RelLayer.linArr (N := 2000) x0 x1 x2) p j
      = RelLayer.logSoftmax (RelLayer.linArr (N := 50000) A W b) i j' := by
  subst h1 h2 hj
  have hrow : ∀ c' : Fin 16, RelLayer.linArr (N := 2000) x0 x1 x2 (ix2 p c') = RelLayer.linArr (N := 50000) A x1 x2 (ix2 i c') := fun c' => by
    rw [RelLayer.linArr_apply, RelLayer.linArr_apply]
    unfold RelLayer.lin
    simp only [h0]
  unfold RelLayer.logSoftmax
  simp only [hrow]

/-! ## The index maps, decided over the 25 grid points -/

/-- At point t the aggregates' window is at block (0, t, 0), the weights' and the bias's at the origin, the output's at
    block (t, 0). -/
private theorem index_facts : ∀ t : Fin cfg1.N, win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 1) = 0
    ∧ win1_3.index t (0 : Fin 2) = t.val ∧ win1_3.index t (1 : Fin 2) = 0 :=
  (by decide +kernel : ∀ t : Fin grid1.N, _)

/-- The aggregates' block at point t holds rows 2000 t .. of the array: its entry x is the array's entry k whenever
    k's row is 2000 t plus x's row and the other two coordinates agree. -/
private theorem aggBlock_apply (c : Dev nD) (t : Fin cfg1.N) (x : S4x2000x128.Idx) (k : S4x50000x128.Idx)
    (hk0 : (k 0).val = (x 0).val) (hk1 : (k 1).val = 2000 * t.val + (x 1).val) (hk2 : (k 2).val = (x 2).val) :
    (iblk1 V c 0 t : Vec Ideal S4x2000x128 .bf16) x = (V c main_v69 : S4x50000x128.Idx → EReal) k := by
  obtain ⟨e0, e1, e2, -⟩ := index_facts t
  unfold iblk1
  rw [View.read_apply]
  show (V c main_v69 : S4x50000x128.Idx → EReal) _ = _
  refine congrArg (V c main_v69 : S4x50000x128.Idx → EReal) (funext fun a => Fin.ext ?_)
  match a with
  | ⟨0, _⟩ => show win1_0.index t (0 : Fin 3) * 4 + 1 * (x 0).val = (k 0).val; rw [e0, hk0]; omega
  | ⟨1, _⟩ => show win1_0.index t (1 : Fin 3) * 2000 + 1 * (x 1).val = (k 1).val; rw [e1, hk1]; omega
  | ⟨2, _⟩ => show win1_0.index t (2 : Fin 3) * 128 + 1 * (x 2).val = (k 2).val; rw [e2, hk2]; omega

/-- The weights' block at every point is the whole weight array. -/
private theorem weightBlock_eq (c : Dev nD) (t : Fin cfg1.N) :
    (iblk1 V c 1 t : Vec Ideal S4x128x16 .bf16) = (V c main_v71 : S4x128x16.Idx → EReal) := by
  obtain ⟨-, -, -, e0, e1, e2, -⟩ := index_facts t
  funext x
  unfold iblk1
  rw [View.read_apply]
  show (V c main_v71 : S4x128x16.Idx → EReal) _ = _
  refine congrArg (V c main_v71 : S4x128x16.Idx → EReal) (funext fun a => Fin.ext ?_)
  match a with
  | ⟨0, _⟩ => show win1_1.index t (0 : Fin 3) * 4 + 1 * (x 0).val = (x 0).val; rw [e0]; omega
  | ⟨1, _⟩ => show win1_1.index t (1 : Fin 3) * 128 + 1 * (x 1).val = (x 1).val; rw [e1]; omega
  | ⟨2, _⟩ => show win1_1.index t (2 : Fin 3) * 16 + 1 * (x 2).val = (x 2).val; rw [e2]; omega

/-- The bias's block at every point is the whole bias. -/
private theorem biasBlock_eq (c : Dev nD) (t : Fin cfg1.N) :
    (iblk1 V c 2 t : Vec Ideal S16 .f32) = (V c main_arg6 : S16.Idx → EReal) := by
  obtain ⟨-, -, -, -, -, -, e0, -⟩ := index_facts t
  funext x
  unfold iblk1
  rw [View.read_apply]
  show (V c main_arg6 : S16.Idx → EReal) _ = _
  refine congrArg (V c main_arg6 : S16.Idx → EReal) (funext fun a => Fin.ext ?_)
  match a with
  | ⟨0, _⟩ => show win1_2.index t (0 : Fin 1) * 16 + 1 * (x 0).val = (x 0).val; rw [e0]; omega

/-! ## What a point writes back, the cover, the array -/

/-- What point t writes back is block t of the whole result: row p of the block is row 2000 t + p of the array. -/
private theorem flushed_eq (c : Dev nD) (t : Fin cfg1.N) :
    (dat1 (F := Ideal) V c).flushed 3 t
      = ((cfg1.win 3).blk t).view.read (Elt Ideal)
          (RelLayer.logSoftmaxArr (RelLayer.linArr (N := 50000) (fin := 128) (hout := 16) (V c main_v69) (V c main_v71) (V c main_arg6))) := by
  show (cfg1.win 3).cut (grid1.coords t) ((dat1 V c).after 3 t) = _
  rw [after1_3, blockOut_eq]
  obtain ⟨-, -, -, -, -, -, -, e0, e1⟩ := index_facts t
  refine funext fun (y : S2000x16.Idx) => ?_
  rw [View.read_apply]
  refine blockRow_eq (V c main_v69) (V c main_v71) (V c main_arg6) (iblk1 V c 0 t) (iblk1 V c 1 t) (iblk1 V c 2 t) (y 0)
    (((cfg1.win 3).blk t).view.emb y 0) (y 1) (((cfg1.win 3).blk t).view.emb y 1) (fun r cc => ?_)
    (weightBlock_eq V c t) (biasBlock_eq V c t) (Fin.ext ?_)
  · refine aggBlock_apply V c t _ _ rfl ?_ rfl
    show win1_3.index t (0 : Fin 2) * 2000 + 1 * (y 0).val = 2000 * t.val + (y 0).val
    rw [e0]; omega
  · show win1_3.index t (1 : Fin 2) * 16 + 1 * (y 1).val = (y 1).val
    rw [e1]; omega

/-- An index of the result array is in point t's block iff each coordinate is in the block's range on its axis. -/
private theorem mem_block (t : Fin cfg1.N) (i : S50000x16.Idx) :
    i ∈ ((cfg1.win 3).blk t).view.set
      ↔ ∀ a : Fin 2, win1_3.index t a * S2000x16.size a ≤ (i a).val ∧ (i a).val < win1_3.index t a * S2000x16.size a + S2000x16.size a := by
  show i ∈ ((View.whole main_v72).slice (win1_3.rect t)).set ↔ _
  rw [View.set_slice_whole, Rect.mem_set_unit]
  exact Iff.rfl

/-- Row i 0 of the result array is in the block of point i 0 / 2000, which is written back. -/
private theorem covered (i : S50000x16.Idx) :
    ∃ t : Fin cfg1.N, (cfg1.win 3).flush t = true ∧ i ∈ ((cfg1.win 3).blk t).view.set := by
  have hi0 : (i 0).val < 50000 := (i 0).isLt
  have hi1 : (i 1).val < 16 := (i 1).isLt
  obtain ⟨t, ht⟩ : ∃ t : Fin cfg1.N, t.val = (i 0).val / 2000 := ⟨⟨(i 0).val / 2000, by show (i 0).val / 2000 < 25; omega⟩, rfl⟩
  obtain ⟨-, -, -, -, -, -, -, e0, e1⟩ := index_facts t
  refine ⟨t, flush1_3 t, ?_⟩
  rw [mem_block]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 16 ≤ (i 1).val ∧ (i 1).val < win1_3.index t (1 : Fin 2) * 16 + 16
    rw [e1]; omega

/-- The second region's output array after its 25 grid points: the row-wise log-softmax of the relation-wise linear layer
    of the arrays it reads. -/
theorem arr1 (c : Dev nD) :
    (dat1 (F := Ideal) V c).arrAt 3 cfg1.N
      = RelLayer.logSoftmaxArr (RelLayer.linArr (N := 50000) (fin := 128) (hout := 16) (V c main_v69) (V c main_v71) (V c main_arg6)) :=
  (dat1 V c).arrAt_eq_of_cover 3 _ (fun t _ => flushed_eq V c t) covered

end Cert.KernelIdeal.RegionValue2

end
-- ==== Proof.KernelFold.lean ====
/-
  The kernel's run read back to its arguments.

  Between the launch and the return the TensorCore's buffers pass through six boundaries: three stretches of host operations
  (the edge normalisation, the first gather / scale / scatter-add), the first dense layer, one more stretch (the second
  gather / scale / scatter-add on the first layer's output) and the second dense layer. Every host stretch is the same list
  of operations the reference runs on the same inputs, so each buffer a dense layer reads is the reference's stage of the same
  name applied to the launch contents; the dense layers are the layer function of RelLayer. Chained, the result array is one
  closed function of the seven arguments.
-/
import proofs.«116056_j30640296689801_1_alg».proof.Proof.Gen.KernelIdeal.Frame
import proofs.«116056_j30640296689801_1_alg».proof.Proof.SecondAgg
import proofs.«116056_j30640296689801_1_alg».proof.Proof.Region0
import proofs.«116056_j30640296689801_1_alg».proof.Proof.Region1
import proofs.«116056_j30640296689801_1_alg».proof.Proof.RelLayer

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Cert.ReferenceIdeal.ReadP (val_main_v1 val_main_v3 val_main_v30 val_main_v47)
open Cert.ReferenceIdeal.Agg (secondAgg)

/-! ## The buffers the first dense layer and the second stretch read, at the first layer's entry -/

section AnyFloat

variable {F : FTy → Type} [FloatOps F]
variable (m : (ℓ : Loc nD τ sig) → Buf (Elt F) ℓ) (ρ : Dev nD → PrngReg)

/-- The edges' destinations: row 0 of the edge list. -/
theorem entry_v1 (c : Dev nD) : V3 m ρ c main_v1 = val_main_v1 (F := F) (m ((c : Thread nD τ).loc main_arg1)) := by
  show StableHlo.after hostOps0_2 (StableHlo.after hostOps0_1 (StableHlo.after hostOps0 (W0 m ρ c))) (Proc.devRef .tc main_v1) = _
  after_results_simp
  rfl

/-- The edges' sources: row 1 of the edge list. -/
theorem entry_v3 (c : Dev nD) : V3 m ρ c main_v3 = val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The edges' normalisation: the product of the inverse square roots of the degrees at an edge's two ends. -/
theorem entry_v30 (c : Dev nD) : V3 m ρ c main_v30 = val_main_v30 (F := F) (m ((c : Thread nD τ).loc main_arg1)) := by
  show StableHlo.after hostOps0_2 (StableHlo.after hostOps0_1 (StableHlo.after hostOps0 (W0 m ρ c))) (Proc.devRef .tc main_v30) = _
  after_results_simp
  rfl

/-- The first aggregate, narrowed to the matrix unit's input format. -/
theorem entry_v48 (c : Dev nD) :
    V3 m ρ c main_v48 = truncf .bf16 (val_main_v47 (F := F) (m ((c : Thread nD τ).loc main_arg0)) (m ((c : Thread nD τ).loc main_arg1)) (m ((c : Thread nD τ).loc main_arg2))) bitsLt_bf16_f32 := by
  show StableHlo.after hostOps0_2 (StableHlo.after hostOps0_1 (StableHlo.after hostOps0 (W0 m ρ c))) (Proc.devRef .tc main_v48) = _
  after_results_simp
  rfl

/-- The first weight matrix read as four blocks of 256 rows, narrowed. -/
theorem entry_v50 (c : Dev nD) :
    V3 m ρ c main_v50 = truncf .bf16 (shapeCast S4x256x128 (m ((c : Thread nD τ).loc main_arg3)) shapeCasts_S1024x128_S4x256x128) bitsLt_bf16_f32 := by
  show StableHlo.after hostOps0_2 (StableHlo.after hostOps0_1 (StableHlo.after hostOps0 (W0 m ρ c))) (Proc.devRef .tc main_v50) = _
  after_results_simp
  rfl

/-- No host operation writes an argument. -/
theorem entry_arg2 (c : Dev nD) : V3 m ρ c main_arg2 = (m ((c : Thread nD τ).loc main_arg2)) := by
  show StableHlo.after hostOps0_2 (StableHlo.after hostOps0_1 (StableHlo.after hostOps0 (W0 m ρ c))) (Proc.devRef .tc main_arg2) = _
  after_results_simp
theorem entry_arg4 (c : Dev nD) : V3 m ρ c main_arg4 = (m ((c : Thread nD τ).loc main_arg4)) := by
  show StableHlo.after hostOps0_2 (StableHlo.after hostOps0_1 (StableHlo.after hostOps0 (W0 m ρ c))) (Proc.devRef .tc main_arg4) = _
  after_results_simp
theorem entry_arg5 (c : Dev nD) : V3 m ρ c main_arg5 = (m ((c : Thread nD τ).loc main_arg5)) := by
  show StableHlo.after hostOps0_2 (StableHlo.after hostOps0_1 (StableHlo.after hostOps0 (W0 m ρ c))) (Proc.devRef .tc main_arg5) = _
  after_results_simp
theorem entry_arg6 (c : Dev nD) : V3 m ρ c main_arg6 = (m ((c : Thread nD τ).loc main_arg6)) := by
  show StableHlo.after hostOps0_2 (StableHlo.after hostOps0_1 (StableHlo.after hostOps0 (W0 m ρ c))) (Proc.devRef .tc main_arg6) = _
  after_results_simp

/-! ## The buffers the second dense layer reads, at its entry -/

/-- The first layer writes its output array only: every other buffer is as it was at the layer's entry. -/
theorem across (c : Dev nD) (b : Ref sig .tc) (hb : ∀ w, Pipeline.arrRef spec0 w ≠ b) : W4 m ρ c (Proc.devRef .tc b) = V3 m ρ c b :=
  W4_of_ne m ρ c b hb

/-- The second aggregate, narrowed: the second stretch's gather / scale / scatter-add applied to the first layer's output. -/
theorem entry2_v69 (c : Dev nD) :
    V5 m ρ c main_v69
      = truncf .bf16 (secondAgg (F := F) (W4 m ρ c (Proc.devRef .tc main_v51)) (m ((c : Thread nD τ).loc main_arg1)) (m ((c : Thread nD τ).loc main_arg2))) bitsLt_bf16_f32 := by
  show StableHlo.after hostOps1 (W4 m ρ c) (Proc.devRef .tc main_v69) = _
  after_results_simp
  rw [across m ρ c main_v3 (by decide), across m ρ c main_v30 (by decide), across m ρ c main_arg2 (by decide),
    across m ρ c main_v1 (by decide), entry_v3, entry_v30, entry_arg2, entry_v1]
  rfl

/-- The second weight matrix read as four blocks of 128 rows, narrowed. -/
theorem entry2_v71 (c : Dev nD) :
    V5 m ρ c main_v71 = truncf .bf16 (shapeCast S4x128x16 (m ((c : Thread nD τ).loc main_arg5)) shapeCasts_S512x16_S4x128x16) bitsLt_bf16_f32 := by
  show StableHlo.after hostOps1 (W4 m ρ c) (Proc.devRef .tc main_v71) = _
  after_results_simp
  rw [across m ρ c main_arg5 (by decide), entry_arg5]
  rfl

theorem entry2_arg6 (c : Dev nD) : V5 m ρ c main_arg6 = (m ((c : Thread nD τ).loc main_arg6)) := by
  show StableHlo.after hostOps1 (W4 m ρ c) (Proc.devRef .tc main_arg6) = _
  after_results_simp
  rw [across m ρ c main_arg6 (by decide), entry_arg6]

end AnyFloat

/-! ## The result, on the extended reals -/

/-- The whole network as one function of its seven inputs: the first layer on the first aggregate, the second aggregate of
    its output, the second layer, the row-wise log-softmax. -/
def network (x0 : (⟨Cert.ReferenceIdeal.S50000x256, .f32⟩ : BufTy).Contents (Elt Ideal)) (x1 : (⟨Cert.ReferenceIdeal.S2x800000, .i32⟩ : BufTy).Contents (Elt Ideal))
    (x2 : (⟨Cert.ReferenceIdeal.S800000, .i32⟩ : BufTy).Contents (Elt Ideal)) (x3 : (⟨Cert.ReferenceIdeal.S1024x128, .f32⟩ : BufTy).Contents (Elt Ideal))
    (x4 : (⟨Cert.ReferenceIdeal.S128, .f32⟩ : BufTy).Contents (Elt Ideal)) (x5 : (⟨Cert.ReferenceIdeal.S512x16, .f32⟩ : BufTy).Contents (Elt Ideal))
    (x6 : (⟨Cert.ReferenceIdeal.S16, .f32⟩ : BufTy).Contents (Elt Ideal)) : (⟨2, ![50000, 16]⟩ : Shape).Idx → EReal :=
  RelLayer.logSoftmaxArr (RelLayer.linArr (N := 50000) (fin := 128) (hout := 16)
    (secondAgg (F := Ideal)
      (RelLayer.linArr (N := 50000) (fin := 256) (hout := 128) (val_main_v47 (F := Ideal) x0 x1 x2)
        (shapeCast ⟨3, ![4, 256, 128]⟩ x3 shapeCasts_S1024x128_S4x256x128) x4) x1 x2)
    (shapeCast ⟨3, ![4, 128, 16]⟩ x5 shapeCasts_S512x16_S4x128x16) x6)

variable (m : (ℓ : Loc nD τ sig) → Buf (Elt Ideal) ℓ) (ρ : Dev nD → PrngReg)

/-- The first layer's output array, when the second stretch reads it, is the layer function of the first aggregate. -/
theorem firstLayer (c : Dev nD) :
    W4 m ρ c (Proc.devRef .tc main_v51)
      = RelLayer.linArr (N := 50000) (fin := 256) (hout := 128) (val_main_v47 (F := Ideal) (m ((c : Thread nD τ).loc main_arg0)) (m ((c : Thread nD τ).loc main_arg1)) (m ((c : Thread nD τ).loc main_arg2)))
          (shapeCast ⟨3, ![4, 256, 128]⟩ (m ((c : Thread nD τ).loc main_arg3)) shapeCasts_S1024x128_S4x256x128) (m ((c : Thread nD τ).loc main_arg4)) := by
  have e : W4 m ρ c (Proc.devRef .tc main_v51) = (dat0 (F := Ideal) (V3 m ρ) c).arrAt 3 cfg0.N := W4_arr m ρ c 3
  rw [e, Cert.KernelIdeal.RegionValue.arr0, entry_v48, entry_v50, entry_arg4]
  rfl

/-- The result array at the return is the network of the launch contents of the seven arguments. -/
theorem result_eq (c : Dev nD) :
    W6 m ρ c (Proc.devRef .tc main_v72)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : W6 m ρ c (Proc.devRef .tc main_v72) = (dat1 (F := Ideal) (V5 m ρ) c).arrAt 3 cfg1.N := W6_arr m ρ c 3
  rw [e, Cert.KernelIdeal.RegionValue2.arr1, entry2_v69, entry2_v71, entry2_arg6, firstLayer]
  rfl

end Cert.KernelIdeal.Fold

end
-- ==== Proof.RefLayers.lean ====
/-
  The reference's two dense layers read as the layer function of RelLayer: the host program stacks the four aggregates
  side by side (a transpose and a reshape), multiplies by the whole weight matrix and adds the bias; stretch r of the
  contracted axis is relation r, so the one sum over 4 * fin terms is the sum over the four relations of the sums over fin.
  The second layer's result goes through the row-wise log-softmax, whose extra maximum with minus infinity changes nothing.
-/
import proofs.«116056_j30640296689801_1_alg».proof.Proof.RefRead
import proofs.«116056_j30640296689801_1_alg».proof.Proof.RelLayer
import proofs.«116056_j30640296689801_1_alg».proof.Proof.LibRowLayers
import proofs.«116056_j30640296689801_1_alg».proof.Proof.LibLogSoftmax

noncomputable section

namespace Cert.ReferenceIdeal.RefValue

open Idealize.ShloMosaic Idealize.ShloMosaic.TcCoe Idealize.SL.Sem Idealize.ShloMosaic.ValueIdx
open Cert.ReferenceIdeal Cert.ReferenceIdeal.ReadP

/-- The first layer of the reference, as a function of the first aggregate (stage %47), the weights and the bias. -/
theorem v53_eq (x0 : (⟨S50000x256, .f32⟩ : BufTy).Contents (Elt Ideal)) (x1 : (⟨S2x800000, .i32⟩ : BufTy).Contents (Elt Ideal))
    (x2 : (⟨S800000, .i32⟩ : BufTy).Contents (Elt Ideal)) (x3 : (⟨S1024x128, .f32⟩ : BufTy).Contents (Elt Ideal))
    (x4 : (⟨S128, .f32⟩ : BufTy).Contents (Elt Ideal)) (h : S1024x128.ShapeCasts ⟨3, ![4, 256, 128]⟩) :
    val_main_v53 (F := Ideal) x0 x1 x2 x3 x4
      = RelLayer.linArr (N := 50000) (fin := 256) (hout := 128) (val_main_v47 (F := Ideal) x0 x1 x2) (shapeCast ⟨3, ![4, 256, 128]⟩ x3 h) x4 := by
  funext i
  obtain ⟨p, q, rfl⟩ : ∃ (p : Fin 50000) (q : Fin 128), i = ix2 p q := ⟨i 0, i 1, eq_ix2 i⟩
  rw [RelLayer.linArr_apply]
  unfold RelLayer.lin
  -- entry (p, q): the sum over the 1024 stacked columns k of the stack at (p, k) times the weight at (k, q), plus the bias
  rw [val_main_v53_apply, val_main_v50_apply, val_main_v52_apply, val_main_v51_apply]
  -- the bias, broadcast down the rows, read at (p, q) is its entry q
  have eb : idx_main_v51 (idx_main_v52 (ix2 p q)) = ix1 q := funext fun a => Fin.ext (by match a with | ⟨0, _⟩ => rfl)
  rw [eb, Ideal.addf_def]
  refine congrArg (· + x4 (ix1 q)) ?_
  -- the contracted axis of 1024 = 4 * 256 columns, cut into its four stretches of 256
  show (∑ k : Fin (4 * 256), val_main_v49 (F := Ideal) x0 x1 x2 (lidx_main_v50 (ix2 p q) k) * x3 (ridx_main_v50 (ix2 p q) k)) = _
  rw [RelLayer.sum_four_stretches 256]
  refine Finset.sum_congr rfl fun r _ => Finset.sum_congr rfl fun c _ => ?_
  rw [val_main_v49_apply, val_main_v48_apply]
  have hr : r.val < 4 := r.isLt
  have hc : c.val < 256 := c.isLt
  have hp : p.val < 50000 := p.isLt
  -- column c + 256 r of row p of the stack is entry (r, p, c) of the aggregate
  have ea : idx_main_v48 (idx_main_v49 (lidx_main_v50 (ix2 p q) (finProdFinEquiv (r, c)))) = ix3 r p c :=
    funext fun a => Fin.ext (by
      match a with
      | ⟨0, _⟩ => show (p.val * 1024 + (c.val + 256 * r.val)) / 256 % 4 = r.val; omega
      | ⟨1, _⟩ => show (p.val * 1024 + (c.val + 256 * r.val)) / 1024 = p.val; omega
      | ⟨2, _⟩ => show (p.val * 1024 + (c.val + 256 * r.val)) % 256 = c.val; omega)
  rw [ea]
  refine congrArg (val_main_v47 (F := Ideal) x0 x1 x2 (ix3 r p c) * ·) ?_
  -- row c + 256 r of the weight matrix is row c of block r: the two have the same row-major position
  refine (shapeCast_apply x3 h (ix3 r c q) (ridx_main_v50 (ix2 p q) (finProdFinEquiv (r, c))) ?_).symm
  rewrite [Shape.rowMajor_val_two, Shape.rowMajor_val_three]
  show (c.val + 256 * r.val) * 128 + q.val = (r.val * 256 + c.val) * 128 + q.val
  omega

/-- The second layer of the reference (stage %76), as a function of the second aggregate (stage %70), the weights and the
    bias: entry (p, q) is the sum over the 512 stacked columns k of the stacked aggregate times the weight row k, plus the
    bias; column k = c + 128 r of the stack is column c of relation r, and row k of the weights is row c of block r. -/
private theorem v76_eq (x0 : (⟨S50000x256, .f32⟩ : BufTy).Contents (Elt Ideal)) (x1 : (⟨S2x800000, .i32⟩ : BufTy).Contents (Elt Ideal))
    (x2 : (⟨S800000, .i32⟩ : BufTy).Contents (Elt Ideal)) (x3 : (⟨S1024x128, .f32⟩ : BufTy).Contents (Elt Ideal))
    (x4 : (⟨S128, .f32⟩ : BufTy).Contents (Elt Ideal)) (x5 : (⟨S512x16, .f32⟩ : BufTy).Contents (Elt Ideal))
    (x6 : (⟨S16, .f32⟩ : BufTy).Contents (Elt Ideal)) (h : S512x16.ShapeCasts ⟨3, ![4, 128, 16]⟩) :
    val_main_v76 (F := Ideal) x0 x1 x2 x3 x4 x5 x6
      = RelLayer.linArr (N := 50000) (fin := 128) (hout := 16)
          (val_main_v70 (F := Ideal) x0 x1 x2 x3 x4) (shapeCast ⟨3, ![4, 128, 16]⟩ x5 h) x6 := by
  funext i
  obtain ⟨p, q, rfl⟩ : ∃ (p : Fin 50000) (q : Fin 16), i = ix2 p q := ⟨i 0, i 1, eq_ix2 i⟩
  rw [RelLayer.linArr_apply]
  unfold RelLayer.lin
  rw [val_main_v76_apply, val_main_v73_apply, val_main_v75_apply, val_main_v74_apply]
  -- the bias, broadcast down the rows, read at (p, q) is entry q
  have eb : idx_main_v74 (idx_main_v75 (ix2 p q)) = ix1 q := funext fun a => Fin.ext (by match a with | ⟨0, _⟩ => rfl)
  rw [eb, Ideal.addf_def]
  refine congrArg (· + x6 (ix1 q)) ?_
  -- the contracted axis of 512 = 4 * 128 columns, cut into its four stretches of 128
  show (∑ k : Fin (4 * 128), val_main_v72 (F := Ideal) x0 x1 x2 x3 x4 (lidx_main_v73 (ix2 p q) k) * x5 (ridx_main_v73 (ix2 p q) k)) = _
  rw [RelLayer.sum_four_stretches 128]
  refine Finset.sum_congr rfl fun r _ => Finset.sum_congr rfl fun c _ => ?_
  rw [val_main_v72_apply, val_main_v71_apply]
  have hr : r.val < 4 := r.isLt
  have hc : c.val < 128 := c.isLt
  have hp : p.val < 50000 := p.isLt
  -- column c + 128 r of row p of the stack is entry (r, p, c) of the aggregate
  have ea : idx_main_v71 (idx_main_v72 (lidx_main_v73 (ix2 p q) (finProdFinEquiv (r, c)))) = ix3 r p c :=
    funext fun a => Fin.ext (by
      match a with
      | ⟨0, _⟩ => show (p.val * 512 + (c.val + 128 * r.val)) / 128 % 4 = r.val; omega
      | ⟨1, _⟩ => show (p.val * 512 + (c.val + 128 * r.val)) / 512 = p.val; omega
      | ⟨2, _⟩ => show (p.val * 512 + (c.val + 128 * r.val)) % 128 = c.val; omega)
  rw [ea]
  refine congrArg (val_main_v70 (F := Ideal) x0 x1 x2 x3 x4 (ix3 r p c) * ·) ?_
  -- row c + 128 r of the weight matrix is row c of block r: the two have the same row-major position
  refine (shapeCast_apply x5 h (ix3 r c q) (ridx_main_v73 (ix2 p q) (finProdFinEquiv (r, c))) ?_).symm
  rewrite [Shape.rowMajor_val_two, Shape.rowMajor_val_three]
  show (c.val + 128 * r.val) * 16 + q.val = (r.val * 128 + c.val) * 16 + q.val
  omega

/-- The reference's result, as the log-softmax of the second layer of the second aggregate (stage %70). -/
theorem v77_eq (x0 : (⟨S50000x256, .f32⟩ : BufTy).Contents (Elt Ideal)) (x1 : (⟨S2x800000, .i32⟩ : BufTy).Contents (Elt Ideal))
    (x2 : (⟨S800000, .i32⟩ : BufTy).Contents (Elt Ideal)) (x3 : (⟨S1024x128, .f32⟩ : BufTy).Contents (Elt Ideal))
    (x4 : (⟨S128, .f32⟩ : BufTy).Contents (Elt Ideal)) (x5 : (⟨S512x16, .f32⟩ : BufTy).Contents (Elt Ideal))
    (x6 : (⟨S16, .f32⟩ : BufTy).Contents (Elt Ideal)) (h : S512x16.ShapeCasts ⟨3, ![4, 128, 16]⟩) :
    val_main_v77 (F := Ideal) x0 x1 x2 x3 x4 x5 x6
      = RelLayer.logSoftmaxArr (RelLayer.linArr (N := 50000) (fin := 128) (hout := 16)
          (val_main_v70 (F := Ideal) x0 x1 x2 x3 x4) (shapeCast ⟨3, ![4, 128, 16]⟩ x5 h) x6) := by
  funext i
  obtain ⟨p, q, rfl⟩ : ∃ (p : Fin 50000) (q : Fin 16), i = ix2 p q := ⟨i 0, i 1, eq_ix2 i⟩
  -- the second layer is stage %76; what follows it is, term for term, the whole-array spelling of the row-wise log-softmax
  rw [RelLayer.logSoftmaxArr_apply, ← v76_eq x0 x1 x2 x3 x4 x5 x6 h]
  exact RowSoftmax.host_apply Gen.reducesTo_S50000x16_S50000_d1 (by decide) Gen.h_S_ Gen.bcast_S_S50000
    Gen.bcast_S50000_S50000x1_0 Gen.bcast_S50000x1_S50000x16_0_1 (val_main_v76 (F := Ideal) x0 x1 x2 x3 x4 x5 x6) p q

end Cert.ReferenceIdeal.RefValue

end
-- ==== Proof.lean ====
/-
  A relation-wise graph network of two layers, as a kernel and as its reference, are the same function on the extended reals.

  Both programs compute, from node features x, an edge list, an edge relation in 0..3 and two weight matrices with biases:
  the degree-normalised weight of every edge; for each relation r the matrix A r whose row i adds up the weighted features of
  the sources of relation-r edges into node i; the dense layer  h i j = (sum over r, c of A r i c * W (256 r + c) j) + b j;
  the same aggregation of h; a second dense layer; and a log-softmax along each row.

  The gathers, scalings and scatter-adds are the same host operations on both sides. The dense layers differ in arrangement
  only: the reference lays the four A r side by side and multiplies once by the whole weight matrix, a sum over 4 * 256 (then
  4 * 128) terms; the kernel multiplies each A r by its block of the weight matrix on the matrix unit, in blocks of 2000 rows,
  and adds the four products: the same terms grouped by relation (RelLayer.sum_four_stretches). Narrowing the operands to
  bf16 is the identity on extended reals. The kernel's log-softmax is the reference's but for one maximum against minus
  infinity, which a maximum folded from minus infinity absorbs. Only commutativity and associativity of addition are used,
  so the precondition (finite inputs) is never opened; the integer inputs are unrestricted, gather and scatter being total.

  The kernel's arithmetic does not change under idealization (no rewrite was applied), so the third claim is trivial.
-/
import proofs.«116056_j30640296689801_1_alg».proof.Defs
import proofs.«116056_j30640296689801_1_alg».proof.Proof.Gen.Kernel
import proofs.«116056_j30640296689801_1_alg».proof.Proof.Gen.Kernel.Frame
import proofs.«116056_j30640296689801_1_alg».proof.Proof.Gen.KernelIdeal
import proofs.«116056_j30640296689801_1_alg».proof.Proof.Gen.KernelIdeal.Frame
import proofs.«116056_j30640296689801_1_alg».proof.Proof.Gen.ReferenceIdeal
import proofs.«116056_j30640296689801_1_alg».proof.Proof.Gen.Pre_finite_inputs
import proofs.«116056_j30640296689801_1_alg».proof.Proof.RunNamed
import proofs.«116056_j30640296689801_1_alg».proof.Proof.KernelFold
import proofs.«116056_j30640296689801_1_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

/-- The reference's result stage is the network of its arguments: its two dense layers are the layer function, its second
    aggregate the aggregate of the first layer's output, its last call the row-wise log-softmax. -/
theorem reference_network (x0 : (⟨Cert.ReferenceIdeal.S50000x256, .f32⟩ : BufTy).Contents (Elt Ideal))
    (x1 : (⟨Cert.ReferenceIdeal.S2x800000, .i32⟩ : BufTy).Contents (Elt Ideal)) (x2 : (⟨Cert.ReferenceIdeal.S800000, .i32⟩ : BufTy).Contents (Elt Ideal))
    (x3 : (⟨Cert.ReferenceIdeal.S1024x128, .f32⟩ : BufTy).Contents (Elt Ideal)) (x4 : (⟨Cert.ReferenceIdeal.S128, .f32⟩ : BufTy).Contents (Elt Ideal))
    (x5 : (⟨Cert.ReferenceIdeal.S512x16, .f32⟩ : BufTy).Contents (Elt Ideal)) (x6 : (⟨Cert.ReferenceIdeal.S16, .f32⟩ : BufTy).Contents (Elt Ideal)) :
    Cert.ReferenceIdeal.ReadP.val_main_v77 (F := Ideal) x0 x1 x2 x3 x4 x5 x6 = Cert.KernelIdeal.Fold.network x0 x1 x2 x3 x4 x5 x6 := by
  rw [Cert.ReferenceIdeal.RefValue.v77_eq x0 x1 x2 x3 x4 x5 x6 Cert.KernelIdeal.Gen.shapeCasts_S512x16_S4x128x16,
    Cert.ReferenceIdeal.Agg.val_main_v70_eq,
    Cert.ReferenceIdeal.RefValue.v53_eq x0 x1 x2 x3 x4 Cert.KernelIdeal.Gen.shapeCasts_S1024x128_S4x256x128]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the seven arguments, the kernel ends with its result array at the network of those
    arguments (its run read back through the two dense layers) and so does the reference (its run read stage by stage). -/
theorem algebraic : Cert.algebraic_KernelIdeal_ReferenceIdeal := by
  intro m ρ m' ρ' _ hagree
  refine ⟨fun c => Cert.KernelIdeal.Fold.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6⟩ := hagree c
    rw [Cert.ReferenceIdeal.ReadP.val_main_v77_eq, e0, e1, e2, e3, e4, e5, e6]
    exact reference_network _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
